-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x192 : Shape := ⟨3, ![32, 1024, 192]⟩
abbrev S32x64 : Shape := ⟨2, ![32, 64]⟩
abbrev S32 : Shape := ⟨1, ![32]⟩
abbrev S1x256x256 : Shape := ⟨3, ![1, 256, 256]⟩
abbrev S256 : Shape := ⟨1, ![256]⟩
abbrev S_ : Shape := ⟨0, ![]⟩

class Facts : Prop where
  bcast_S_S32x1024x192 : S_.BroadcastsInDim S32x1024x192 (![] : Fin 0 → Fin S32x1024x192.rank)
  reducesTo_S32x1024x192_S_d0_1_2 : S32x1024x192.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S1x256x256 : S_.BroadcastsInDim S1x256x256 (![] : Fin 0 → Fin S1x256x256.rank)
  reducesTo_S1x256x256_S_d0_1_2 : S1x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x1024x192 .f32) (main_arg1 : FVec F S32x64 .f32) (main_arg2 : IVec S32 32) (main_arg3 : FVec F S1x256x256 .f32) (main_arg4 : FVec F S256 .f32) : IVec S_ 1 :=
  let main_v0 : FVec F S32x1024x192 .f32 := Host.absf main_arg0
  let main_cst : FVec F S_ .f32 := constant S_ .f32 0x7F800000#32
  let main_v1 : FVec F S32x1024x192 .f32 := broadcastInDim S32x1024x192 ![] bcast_S_S32x1024x192 main_cst
  let main_v2 : IVec S32x1024x192 1 := cmpf .olt main_v0 main_v1
  let main_c : IVec S_ 1 := constantI S_ 1 1#1
  let main_v3 : IVec S_ 1 := (fun x v => Host.reduce IntOp.andi x v reducesTo_S32x1024x192_S_d0_1_2 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S1x256x256 .f32 := Host.absf main_arg3
  let main_cst_2 : FVec F S_ .f32 := constant S_ .f32 0x7F800000#32
  let main_v10 : FVec F S1x256x256 .f32 := broadcastInDim S1x256x256 ![] bcast_S_S1x256x256 main_cst_2
  let main_v11 : IVec S1x256x256 1 := cmpf .olt main_v9 main_v10
  let main_c_3 : IVec S_ 1 := constantI S_ 1 1#1
  let main_v12 : IVec S_ 1 := (fun x v => Host.reduce IntOp.andi x v reducesTo_S1x256x256_S_d0_1_2 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x1024x192 : Shape := ⟨3, ![32, 1024, 192]⟩
abbrev S32x64 : Shape := ⟨2, ![32, 64]⟩
abbrev S32 : Shape := ⟨1, ![32]⟩
abbrev S1x256x256 : Shape := ⟨3, ![1, 256, 256]⟩
abbrev S256 : Shape := ⟨1, ![256]⟩
abbrev S32x1x64 : Shape := ⟨3, ![32, 1, 64]⟩
abbrev S_ : Shape := ⟨0, ![]⟩
abbrev S1025x256 : Shape := ⟨2, ![1025, 256]⟩
abbrev S1 : Shape := ⟨1, ![1]⟩
abbrev S2 : Shape := ⟨1, ![2]⟩
abbrev S1024x192 : Shape := ⟨2, ![1024, 192]⟩
abbrev S64 : Shape := ⟨1, ![64]⟩
abbrev S1025 : Shape := ⟨1, ![1025]⟩
abbrev S1025x1 : Shape := ⟨2, ![1025, 1]⟩
abbrev S1x1025 : Shape := ⟨2, ![1, 1025]⟩
abbrev S1025x1025 : Shape := ⟨2, ![1025, 1025]⟩
abbrev S1024 : Shape := ⟨1, ![1024]⟩
abbrev S1x1024x192 : Shape := ⟨3, ![1, 1024, 192]⟩
abbrev S1x1x64 : Shape := ⟨3, ![1, 1, 64]⟩
abbrev S1024x64 : Shape := ⟨2, ![1024, 64]⟩
abbrev S1x192 : Shape := ⟨2, ![1, 192]⟩
abbrev S1x64 : Shape := ⟨2, ![1, 64]⟩
abbrev S256x256 : Shape := ⟨2, ![256, 256]⟩
abbrev S1x256 : Shape := ⟨2, ![1, 256]⟩

abbrev nBuf : Space → Nat
  | .hbm => 56
  | .vmem => 13
  | .smem => 1
  | _ => 0

abbrev bufTy : (tb : Table) → Fin (tcTables nBuf tb) → BufTy
  | .hbm, ⟨0, _⟩ => ⟨S32x1024x192, .f32⟩
  | .hbm, ⟨1, _⟩ => ⟨S32x64, .f32⟩
  | .hbm, ⟨2, _⟩ => ⟨S1x256x256, .f32⟩
  | .hbm, ⟨3, _⟩ => ⟨S256, .f32⟩
  | .hbm, ⟨4, _⟩ => ⟨S32x1x64, .f32⟩
  | .hbm, ⟨5, _⟩ => ⟨S_, .f32⟩
  | .hbm, ⟨6, _⟩ => ⟨S1025x256, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S_, .f32⟩
  | .hbm, ⟨13, _⟩ => ⟨S1024x192, .f32⟩
  | .hbm, ⟨14, _⟩ => ⟨S1025x256, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S_, .f32⟩
  | .hbm, ⟨21, _⟩ => ⟨S64, .f32⟩
  | .hbm, ⟨22, _⟩ => ⟨S1025x256, .f32⟩
  | .hbm, ⟨23, _⟩ => ⟨S1025, .i32⟩
  | .hbm, ⟨24, _⟩ => ⟨S1025x1, .i32⟩
  | .hbm, ⟨25, _⟩ => ⟨S1x1025, .i32⟩
  | .hbm, ⟨26, _⟩ => ⟨S1025x1025, .i32⟩
  | .hbm, ⟨27, _⟩ => ⟨S1025x1025, .i32⟩
  | .hbm, ⟨28, _⟩ => ⟨S1025x1025, .i32⟩
  | .hbm, ⟨29, _⟩ => ⟨S1025x1025, .i32⟩
  | .hbm, ⟨30, _⟩ => ⟨S1025x1025, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S_, .f32⟩
  | .hbm, ⟨37, _⟩ => ⟨S1024, .f32⟩
  | .hbm, ⟨38, _⟩ => ⟨S1025x1025, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S_, .f32⟩
  | .hbm, ⟨45, _⟩ => ⟨S1024, .f32⟩
  | .hbm, ⟨46, _⟩ => ⟨S1025x1025, .f32⟩
  | .hbm, ⟨47, _⟩ => ⟨S_, .f32⟩
  | .hbm, ⟨48, _⟩ => ⟨S1025x1025, .f32⟩
  | .hbm, ⟨49, _⟩ => ⟨S1025x1025, .f32⟩
  | .hbm, ⟨50, _⟩ => ⟨S1025x1025, .f32⟩
  | .hbm, ⟨51, _⟩ => ⟨S1025x1025, .f32⟩
  | .hbm, ⟨52, _⟩ => ⟨S1025x1025, .bf16⟩
  | .hbm, ⟨53, _⟩ => ⟨S32x1024x192, .f32⟩
  | .hbm, ⟨54, _⟩ => ⟨S32x1x64, .f32⟩
  | .hbm, ⟨55, _⟩ => ⟨S32x64, .f32⟩
  | .local _ .vmem, ⟨0, _⟩ => ⟨S1x1024x192, .f32⟩
  | .local _ .vmem, ⟨1, _⟩ => ⟨S1x1024x192, .f32⟩
  | .local _ .vmem, ⟨2, _⟩ => ⟨S1x1x64, .f32⟩
  | .local _ .vmem, ⟨3, _⟩ => ⟨S1x1x64, .f32⟩
  | .local _ .vmem, ⟨4, _⟩ => ⟨S1025x256, .f32⟩
  | .local _ .vmem, ⟨5, _⟩ => ⟨S1025x1025, .bf16⟩
  | .local _ .vmem, ⟨6, _⟩ => ⟨S1x256x256, .f32⟩
  | .local _ .vmem, ⟨7, _⟩ => ⟨S256, .f32⟩
  | .local _ .vmem, ⟨8, _⟩ => ⟨S1x1024x192, .f32⟩
  | .local _ .vmem, ⟨9, _⟩ => ⟨S1x1024x192, .f32⟩
  | .local _ .vmem, ⟨10, _⟩ => ⟨S1x1x64, .f32⟩
  | .local _ .vmem, ⟨11, _⟩ => ⟨S1x1x64, .f32⟩
  | .local _ .vmem, ⟨12, _⟩ => ⟨S1025x256, .f32⟩
  | .local _ .smem, ⟨0, _⟩ => ⟨S32, .i32⟩
  | _, _ => ⟨S32x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v36 : Ref sig .tc := ⟨.hbm, 55, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1025x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1025x1025 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S32x64_S32x1x64_0_2 : S32x64.BroadcastsInDim S32x1x64 (![0, 2] : Fin 2 → Fin S32x1x64.rank)
  bcast_S_S1025x256 : S_.BroadcastsInDim S1025x256 (![] : Fin 0 → Fin S1025x256.rank)
  bcast_S_S1 : S_.BroadcastsInDim S1 (![] : Fin 0 → Fin S1.rank)
  concatenates_S1_S1_S2_d0 : Shape.Concatenates [S1, S1] S2 0
  bcast_S_S1024x192 : S_.BroadcastsInDim S1024x192 (![] : Fin 0 → Fin S1024x192.rank)
  bcast_S_S64 : S_.BroadcastsInDim S64 (![] : Fin 0 → Fin S64.rank)
  bcast_S1025_S1025x1_0 : S1025.BroadcastsInDim S1025x1 (![0] : Fin 1 → Fin S1025x1.rank)
  bcast_S1025_S1x1025_1 : S1025.BroadcastsInDim S1x1025 (![1] : Fin 1 → Fin S1x1025.rank)
  bcast_S1025x1_S1025x1025_0_1 : S1025x1.BroadcastsInDim S1025x1025 (![0, 1] : Fin 2 → Fin S1025x1025.rank)
  bcast_S1x1025_S1025x1025_0_1 : S1x1025.BroadcastsInDim S1025x1025 (![0, 1] : Fin 2 → Fin S1025x1025.rank)
  bcast_S_S1024 : S_.BroadcastsInDim S1024 (![] : Fin 0 → Fin S1024.rank)
  bcast_S_S1025x1025 : S_.BroadcastsInDim S1025x1025 (![] : Fin 0 → Fin S1025x1025.rank)
  bitsLt_bf16_f32 : FTy.bits .bf16 < FTy.bits .f32
  numel1_S1 : S1.numel = 1
  inb_S1025x256_S1025x256_0_0 : ∀ a, (![0, 0] : Fin 2 → Nat) a + S1025x256.size a ≤ S1025x256.size a
  h_S1025x256 : 0 < S1025x256.numel
  shapeCasts_S1025x256_S1025x256 : S1025x256.ShapeCasts S1025x256
  inb_S1x1024x192_S1x1024x192_0_0_0 : ∀ a, (![0, 0, 0] : Fin 3 → Nat) a + S1x1024x192.size a ≤ S1x1024x192.size a
  h_S1x1024x192 : 0 < S1x1024x192.numel
  shapeCasts_S1x1024x192_S1024x192 : S1x1024x192.ShapeCasts S1024x192
  inb_S1025x256_S1024x192_0_0 : ∀ a, (![0, 0] : Fin 2 → Nat) a + S1024x192.size a ≤ S1025x256.size a
  h_S1024x192 : 0 < S1024x192.numel
  shapeCasts_S1024x192_S1024x192 : S1024x192.ShapeCasts S1024x192
  inb_S1025x256_S1024x64_0_192 : ∀ a, (![0, 192] : Fin 2 → Nat) a + S1024x64.size a ≤ S1025x256.size a
  h_S1024x64 : 0 < S1024x64.numel
  shapeCasts_S1024x64_S1024x64 : S1024x64.ShapeCasts S1024x64
  inb_S1025x256_S1x192_1024_0 : ∀ a, (![1024, 0] : Fin 2 → Nat) a + S1x192.size a ≤ S1025x256.size a
  h_S1x192 : 0 < S1x192.numel
  shapeCasts_S1x192_S1x192 : S1x192.ShapeCasts S1x192
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S1025x256_S1x64_1024_192 : ∀ a, (![1024, 192] : Fin 2 → Nat) a + S1x64.size a ≤ S1025x256.size a
  h_S1x64 : 0 < S1x64.numel
  shapeCasts_S1x64_S1x64 : S1x64.ShapeCasts S1x64
  inb_S1025x1025_S1025x1025_0_0 : ∀ a, (![0, 0] : Fin 2 → Nat) a + S1025x1025.size a ≤ S1025x1025.size a
  h_S1025x1025 : 0 < S1025x1025.numel
  shapeCasts_S1025x1025_S1025x1025 : S1025x1025.ShapeCasts S1025x1025
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256_S256_0 : ∀ a, (![0] : Fin 1 → Nat) a + S256.size a ≤ S256.size a
  h_S256 : 0 < S256.numel
  iota_S1025x1025_d1_w32 : S1025x1025.Iotas .tc 32 [1]
  iota_S1025x1025_d0_w32 : S1025x1025.Iotas .tc 32 [0]
  natLt_1_32 : 1 < 32
  reduces_S1025x256_S1025 : S1025x256.Reduces [1] S1025
  shapeCasts_S1025_S1025x1 : S1025.ShapeCasts S1025x1
  broadcasts_S1025x1_S1025x256 : S1025x1.Broadcasts S1025x256
  shapeCasts_S256_S1x256 : S256.ShapeCasts S1x256
  broadcasts_S1x256_S1025x256 : S1x256.Broadcasts S1025x256
  slices_S1025x256_o0_0_S1024x192 : S1025x256.Slices ![0, 0] S1024x192
  shapeCasts_S1024x192_S1x1024x192 : S1024x192.ShapeCasts S1x1024x192
  slices_S1025x256_o1024_192_S1x64 : S1025x256.Slices ![1024, 192] S1x64
  shapeCasts_S1x64_S64 : S1x64.ShapeCasts S64
  shapeCasts_S1x1x64_S64 : S1x1x64.ShapeCasts S64
  shapeCasts_S64_S1x1x64 : S64.ShapeCasts S1x1x64
  shapeCasts_S32x1x64_S32x64 : S32x1x64.ShapeCasts S32x64
  scatter_S1025x256_S2_S1024x192_01_n_01_0_wf : ScatterDims.WF S1025x256 S2 S1024x192 [0, 1] [] [0, 1] 0
  scatter_S1025x256_S2_S64_0_0_01_0_wf : ScatterDims.WF S1025x256 S2 S64 [0] [0] [0, 1] 0
  scatter_S1025x1025_S2_S1024_0_1_01_0_wf : ScatterDims.WF S1025x1025 S2 S1024 [0] [1] [0, 1] 0
  scatter_S1025x1025_S2_S1024_0_0_01_0_wf : ScatterDims.WF S1025x1025 S2 S1024 [0] [0] [0, 1] 0
  dot_S1025x1025_S1025x256_S1025x256_1_0_0_1_n_n_wf : DotDims.WF S1025x1025 S1025x256 S1025x256 [1] [0] [0] [1] [] []
  dot_S1025x256_S256x256_S1025x256_1_0_0_1_n_n_wf : DotDims.WF S1025x256 S256x256 S1025x256 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x192.size a ≤ S32x1024x192.size a
  hwx0_0 : ∀ i : grid0.Coords, EltTy.bits .f32 = 32 ∨ (Rect.block (s := S32x1024x192) S1x1024x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S32x1x64.size a
  hwx0_1 : ∀ i : grid0.Coords, EltTy.bits .f32 = 32 ∨ (Rect.block (s := S32x1x64) S1x1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1025x256.size a ≤ S1025x256.size a
  hwx0_2 : ∀ i : grid0.Coords, EltTy.bits .f32 = 32 ∨ (Rect.block (s := S1025x256) S1025x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1025x1025.size a ≤ S1025x1025.size a
  hwx0_3 : ∀ i : grid0.Coords, EltTy.bits .bf16 = 32 ∨ (Rect.block (s := S1025x1025) S1025x1025.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S1x256x256.size a
  hwx0_4 : ∀ i : grid0.Coords, EltTy.bits .f32 = 32 ∨ (Rect.block (s := S1x256x256) S1x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x192.size a ≤ S32x1024x192.size a
  hwx0_6 : ∀ i : grid0.Coords, EltTy.bits .f32 = 32 ∨ (Rect.block (s := S32x1024x192) S1x1024x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S32x1x64.size a
  hwx0_7 : ∀ i : grid0.Coords, EltTy.bits .f32 = 32 ∨ (Rect.block (s := S32x1x64) S1x1x64.size (cc0_transform_7 i) (hinb0_7 i)).WholeWords (EltTy.packing .f32)

variable [Facts₀]

def scatter_S1025x256_S2_S1024x192_01_n_01_0 : ScatterDims S1025x256 S2 S1024x192 where
  updateWindowDims := [0, 1]
  insertedWindowDims := []
  scatterDimsToOperandDims := [0, 1]
  indexVectorDim := 0
  wf := scatter_S1025x256_S2_S1024x192_01_n_01_0_wf
def scatter_S1025x256_S2_S64_0_0_01_0 : ScatterDims S1025x256 S2 S64 where
  updateWindowDims := [0]
  insertedWindowDims := [0]
  scatterDimsToOperandDims := [0, 1]
  indexVectorDim := 0
  wf := scatter_S1025x256_S2_S64_0_0_01_0_wf
def scatter_S1025x1025_S2_S1024_0_1_01_0 : ScatterDims S1025x1025 S2 S1024 where
  updateWindowDims := [0]
  insertedWindowDims := [1]
  scatterDimsToOperandDims := [0, 1]
  indexVectorDim := 0
  wf := scatter_S1025x1025_S2_S1024_0_1_01_0_wf
def scatter_S1025x1025_S2_S1024_0_0_01_0 : ScatterDims S1025x1025 S2 S1024 where
  updateWindowDims := [0]
  insertedWindowDims := [0]
  scatterDimsToOperandDims := [0, 1]
  indexVectorDim := 0
  wf := scatter_S1025x1025_S2_S1024_0_0_01_0_wf
def dot_S1025x1025_S1025x256_S1025x256_1_0_0_1_n_n : DotDims S1025x1025 S1025x256 S1025x256 where
  lhsContracting := [1]
  rhsContracting := [0]
  lhsNonContracting := [0]
  rhsNonContracting := [1]
  lhsBatch := []
  rhsBatch := []
  wf := dot_S1025x1025_S1025x256_S1025x256_1_0_0_1_n_n_wf
def dot_S1025x256_S256x256_S1025x256_1_0_0_1_n_n : DotDims S1025x256 S256x256 S1025x256 where
  lhsContracting := [1]
  rhsContracting := [0]
  lhsNonContracting := [0]
  rhsNonContracting := [1]
  lhsBatch := []
  rhsBatch := []
  wf := dot_S1025x256_S256x256_S1025x256_1_0_0_1_n_n_wf

abbrev spec0_0 : Pipeline.WinSpec sig grid0.rank :=
  Pipeline.WinSpec.ofSpec (Memref.whole main_arg0) S1x1024x192.size reads0_0 false false 2 stage0_0 sem0_0 nbuf0_0 hstage0_0

abbrev spec0_1 : Pipeline.WinSpec sig grid0.rank :=
  Pipeline.WinSpec.ofSpec (Memref.whole main_v0) S1x1x64.size reads0_1 false false 2 stage0_1 sem0_1 nbuf0_1 hstage0_1

abbrev spec0_2 : Pipeline.WinSpec sig grid0.rank :=
  Pipeline.WinSpec.ofSpec (Memref.whole main_v11) S1025x256.size reads0_2 false true 1 stage0_2 sem0_2 nbuf0_2 hstage0_2

abbrev spec0_3 : Pipeline.WinSpec sig grid0.rank :=
  Pipeline.WinSpec.ofSpec (Memref.whole main_v34) S1025x1025.size reads0_3 false true 1 stage0_3 sem0_3 nbuf0_3 hstage0_3

abbrev spec0_4 : Pipeline.WinSpec sig grid0.rank :=
  Pipeline.WinSpec.ofSpec (Memref.whole main_arg3) S1x256x256.size reads0_4 false true 1 stage0_4 sem0_4 nbuf0_4 hstage0_4

abbrev spec0_5 : Pipeline.WinSpec sig grid0.rank :=
  Pipeline.WinSpec.ofSpec (Memref.whole main_arg4) S256.size reads0_5 false true 1 stage0_5 sem0_5 nbuf0_5 hstage0_5

abbrev spec0_6 : Pipeline.WinSpec sig grid0.rank :=
  Pipeline.WinSpec.ofSpec (Memref.whole main_v35_0) S1x1024x192.size reads0_6 true false 2 stage0_6 sem0_6 nbuf0_6 hstage0_6

abbrev spec0_7 : Pipeline.WinSpec sig grid0.rank :=
  Pipeline.WinSpec.ofSpec (Memref.whole main_v35_1) S1x1x64.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S32x1024x192 : Shape := ⟨3, ![32, 1024, 192]⟩
abbrev S32x64 : Shape := ⟨2, ![32, 64]⟩
abbrev S32 : Shape := ⟨1, ![32]⟩
abbrev S1x256x256 : Shape := ⟨3, ![1, 256, 256]⟩
abbrev S256 : Shape := ⟨1, ![256]⟩
abbrev S_ : Shape := ⟨0, ![]⟩
abbrev S32x1024x64 : Shape := ⟨3, ![32, 1024, 64]⟩
abbrev S32x1024x256 : Shape := ⟨3, ![32, 1024, 256]⟩
abbrev S32x192 : Shape := ⟨2, ![32, 192]⟩
abbrev S32x256 : Shape := ⟨2, ![32, 256]⟩
abbrev S32x1x256 : Shape := ⟨3, ![32, 1, 256]⟩
abbrev S32x1025x256 : Shape := ⟨3, ![32, 1025, 256]⟩
abbrev S1025 : Shape := ⟨1, ![1025]⟩
abbrev S1025x1 : Shape := ⟨2, ![1025, 1]⟩
abbrev S1x1025 : Shape := ⟨2, ![1, 1025]⟩
abbrev S1025x1025 : Shape := ⟨2, ![1025, 1025]⟩
abbrev S1 : Shape := ⟨1, ![1]⟩
abbrev S2 : Shape := ⟨1, ![2]⟩
abbrev S1024 : Shape := ⟨1, ![1024]⟩
abbrev S32x1 : Shape := ⟨2, ![32, 1]⟩
abbrev S32x1025 : Shape := ⟨2, ![32, 1025]⟩
abbrev S32x1x1025 : Shape := ⟨3, ![32, 1, 1025]⟩
abbrev S1x1025x1025 : Shape := ⟨3, ![1, 1025, 1025]⟩
abbrev S32x1025x1025 : Shape := ⟨3, ![32, 1025, 1025]⟩
abbrev S1025x256 : Shape := ⟨2, ![1025, 256]⟩
abbrev S1024x192 : Shape := ⟨2, ![1024, 192]⟩
abbrev S64 : Shape := ⟨1, ![64]⟩
abbrev S1x1025x256 : Shape := ⟨3, ![1, 1025, 256]⟩
abbrev S32x1025x1 : Shape := ⟨3, ![32, 1025, 1]⟩
abbrev S256x256 : Shape := ⟨2, ![256, 256]⟩
abbrev S1x1x256 : Shape := ⟨3, ![1, 1, 256]⟩
abbrev S32x1x64 : Shape := ⟨3, ![32, 1, 64]⟩

abbrev nBuf : Space → Nat
  | .hbm => 163
  | .vmem => 0
  | .smem => 0
  | _ => 0

abbrev hbmTy0_0 (i : Nat) : BufTy := match i % 128 with
  | 0 => ⟨S32x1024x192, .f32⟩
  | 1 => ⟨S32x64, .f32⟩
  | 2 => ⟨S32, .i32⟩
  | 3 => ⟨S1x256x256, .f32⟩
  | 4 => ⟨S256, .f32⟩
  | 5 => ⟨S_, .f32⟩
  | 6 => ⟨S32x1024x64, .f32⟩
  | 7 => ⟨S32x1024x256, .f32⟩
  | 8 => ⟨S_, .f32⟩
  | 9 => ⟨S32x192, .f32⟩
  | 10 => ⟨S32x256, .f32⟩
  | 11 => ⟨S32x1x256, .f32⟩
  | 12 => ⟨S32x1025x256, .f32⟩
  | 13 => ⟨S1025, .i32⟩
  | 14 => ⟨S1025x1, .i32⟩
  | 15 => ⟨S1x1025, .i32⟩
  | 16 => ⟨S1025x1025, .i32⟩
  | 17 => ⟨S1025x1025, .i32⟩
  | 18 => ⟨S1025x1025, .i32⟩
  | 19 => ⟨S1025x1025, .i32⟩
  | 20 => ⟨S1025x1025, .f32⟩
  | 21 => ⟨S_, .i32⟩
  | 22 => ⟨S1, .i32⟩
  | 23 => ⟨S_, .i32⟩
  | 24 => ⟨S1, .i32⟩
  | 25 => ⟨S2, .i32⟩
  | 26 => ⟨S_, .f32⟩
  | 27 => ⟨S1024, .f32⟩
  | 28 => ⟨S1025x1025, .f32⟩
  | 29 => ⟨S_, .i32⟩
  | 30 => ⟨S1, .i32⟩
  | 31 => ⟨S_, .i32⟩
  | 32 => ⟨S1, .i32⟩
  | 33 => ⟨S2, .i32⟩
  | 34 => ⟨S_, .f32⟩
  | 35 => ⟨S1024, .f32⟩
  | 36 => ⟨S1025x1025, .f32⟩
  | 37 => ⟨S_, .f32⟩
  | 38 => ⟨S1025x1025, .f32⟩
  | 39 => ⟨S1025x1025, .f32⟩
  | 40 => ⟨S1025x1025, .f32⟩
  | 41 => ⟨S1025x1025, .f32⟩
  | 42 => ⟨S1x1025, .i32⟩
  | 43 => ⟨S32x1, .i32⟩
  | 44 => ⟨S32x1025, .i32⟩
  | 45 => ⟨S32x1025, .i32⟩
  | 46 => ⟨S32x1025, .i1⟩
  | 47 => ⟨S1x1025, .i32⟩
  | 48 => ⟨S_, .i32⟩
  | 49 => ⟨S1x1025, .i32⟩
  | 50 => ⟨S1x1025, .i1⟩
  | 51 => ⟨S32x1025, .i1⟩
  | 52 => ⟨S32x1025, .i1⟩
  | 53 => ⟨S1025x1025, .i32⟩
  | 54 => ⟨S1025x1025, .i32⟩
  | 55 => ⟨S_, .i32⟩
  | 56 => ⟨S1025x1025, .i32⟩
  | 57 => ⟨S1025x1025, .i32⟩
  | 58 => ⟨S1025x1025, .i1⟩
  | 59 => ⟨S1025x1025, .f32⟩
  | 60 => ⟨S32x1025, .f32⟩
  | 61 => ⟨S32x1x1025, .f32⟩
  | 62 => ⟨S_, .f32⟩
  | 63 => ⟨S1025x1025, .f32⟩
  | 64 => ⟨S1025x1025, .f32⟩
  | 65 => ⟨S1x1025x1025, .f32⟩
  | 66 => ⟨S32x1025x1025, .f32⟩
  | 67 => ⟨S32x1025x1025, .f32⟩
  | 68 => ⟨S32x1025x1025, .f32⟩
  | 69 => ⟨S_, .f32⟩
  | 70 => ⟨S1025x256, .f32⟩
  | 71 => ⟨S_, .i32⟩
  | 72 => ⟨S1, .i32⟩
  | 73 => ⟨S_, .i32⟩
  | 74 => ⟨S1, .i32⟩
  | 75 => ⟨S2, .i32⟩
  | 76 => ⟨S_, .f32⟩
  | 77 => ⟨S1024x192, .f32⟩
  | 78 => ⟨S1025x256, .f32⟩
  | 79 => ⟨S_, .i32⟩
  | 80 => ⟨S1, .i32⟩
  | 81 => ⟨S_, .i32⟩
  | 82 => ⟨S1, .i32⟩
  | 83 => ⟨S2, .i32⟩
  | 84 => ⟨S_, .f32⟩
  | 85 => ⟨S64, .f32⟩
  | 86 => ⟨S1025x256, .f32⟩
  | 87 => ⟨S1x1025x256, .f32⟩
  | 88 => ⟨S_, .f32⟩
  | 89 => ⟨S1x1025x256, .f32⟩
  | 90 => ⟨S1x1025x256, .f32⟩
  | 91 => ⟨S_, .f32⟩
  | 92 => ⟨S1x1025x256, .f32⟩
  | 93 => ⟨S1x1025x256, .f32⟩
  | 94 => ⟨S32x1025x256, .f32⟩
  | 95 => ⟨S32x1025x256, .f32⟩
  | 96 => ⟨S_, .f32⟩
  | 97 => ⟨S32x1025, .f32⟩
  | 98 => ⟨S_, .f32⟩
  | 99 => ⟨S32x1025, .f32⟩
  | 100 => ⟨S32x1025, .f32⟩
  | 101 => ⟨S32x1025x1, .f32⟩
  | 102 => ⟨S32x1025x256, .f32⟩
  | 103 => ⟨S32x1025x256, .f32⟩
  | 104 => ⟨S32x1025x256, .f32⟩
  | 105 => ⟨S_, .f32⟩
  | 106 => ⟨S32x1025, .f32⟩
  | 107 => ⟨S32x1025x1, .f32⟩
  | 108 => ⟨S32x1025x256, .f32⟩
  | 109 => ⟨S32x1025x256, .f32⟩
  | 110 => ⟨S1x1025x1025, .f32⟩
  | 111 => ⟨S32x1025x1025, .f32⟩
  | 112 => ⟨S32x1025x1025, .f32⟩
  | 113 => ⟨S256x256, .f32⟩
  | 114 => ⟨S32x1025x256, .f32⟩
  | 115 => ⟨S32x1025x256, .f32⟩
  | 116 => ⟨S32x1025x256, .f32⟩
  | 117 => ⟨S32x1025x256, .f32⟩
  | 118 => ⟨S1x1x256, .f32⟩
  | 119 => ⟨S32x1025x256, .f32⟩
  | 120 => ⟨S32x1025x256, .f32⟩
  | 121 => ⟨S32x1025x256, .f32⟩
  | 122 => ⟨S_, .f32⟩
  | 123 => ⟨S1x1025x256, .f32⟩
  | 124 => ⟨S1x1025x256, .f32⟩
  | 125 => ⟨S_, .f32⟩
  | 126 => ⟨S1x1025x256, .f32⟩
  | 127 => ⟨S1x1025x256, .f32⟩
  | _ => ⟨S32x1024x192, .f32⟩

abbrev hbmTy0_1 (i : Nat) : BufTy := match i % 128 with
  | 0 => ⟨S32x1025x256, .f32⟩
  | 1 => ⟨S32x1025x256, .f32⟩
  | 2 => ⟨S_, .f32⟩
  | 3 => ⟨S32x1025, .f32⟩
  | 4 => ⟨S_, .f32⟩
  | 5 => ⟨S32x1025, .f32⟩
  | 6 => ⟨S32x1025, .f32⟩
  | 7 => ⟨S32x1025x1, .f32⟩
  | 8 => ⟨S32x1025x256, .f32⟩
  | 9 => ⟨S32x1025x256, .f32⟩
  | 10 => ⟨S32x1025x256, .f32⟩
  | 11 => ⟨S_, .f32⟩
  | 12 => ⟨S32x1025, .f32⟩
  | 13 => ⟨S32x1025x1, .f32⟩
  | 14 => ⟨S32x1025x256, .f32⟩
  | 15 => ⟨S32x1025x256, .f32⟩
  | 16 => ⟨S32x1025x256, .f32⟩
  | 17 => ⟨S32x1025x256, .f32⟩
  | 18 => ⟨S32x1025x256, .f32⟩
  | 19 => ⟨S32x1025x256, .f32⟩
  | 20 => ⟨S1x1x256, .f32⟩
  | 21 => ⟨S32x1025x256, .f32⟩
  | 22 => ⟨S32x1025x256, .f32⟩
  | 23 => ⟨S32x1025x256, .f32⟩
  | 24 => ⟨S_, .f32⟩
  | 25 => ⟨S1x1025x256, .f32⟩
  | 26 => ⟨S1x1025x256, .f32⟩
  | 27 => ⟨S_, .f32⟩
  | 28 => ⟨S1x1025x256, .f32⟩
  | 29 => ⟨S1x1025x256, .f32⟩
  | 30 => ⟨S32x1025x256, .f32⟩
  | 31 => ⟨S32x1025x256, .f32⟩
  | 32 => ⟨S32x1024x192, .f32⟩
  | 33 => ⟨S32x1x64, .f32⟩
  | 34 => ⟨S32x64, .f32⟩
  | _ => ⟨S32x1024x192, .f32⟩

abbrev hbmTy (i : Nat) : BufTy := match i / 128 with
  | 0 => hbmTy0_0 i
  | 1 => hbmTy0_1 i
  | _ => ⟨S32x1024x192, .f32⟩

abbrev bufTy : (tb : Table) → Fin (tcTables nBuf tb) → BufTy
  | .hbm, ⟨i, _⟩ => hbmTy i
  | _, _ => ⟨S32x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_c_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_cst_20 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_21 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_22 : Ref sig .tc := ⟨.hbm, 122, rfl⟩
abbrev main_v93 : Ref sig .tc := ⟨.hbm, 123, rfl⟩
abbrev main_v94 : Ref sig .tc := ⟨.hbm, 124, rfl⟩
abbrev main_cst_23 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_24 : Ref sig .tc := ⟨.hbm, 130, rfl⟩
abbrev main_v99 : Ref sig .tc := ⟨.hbm, 131, rfl⟩
abbrev main_cst_25 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_26 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_27 : Ref sig .tc := ⟨.hbm, 152, rfl⟩
abbrev main_v118 : Ref sig .tc := ⟨.hbm, 153, rfl⟩
abbrev main_v119 : Ref sig .tc := ⟨.hbm, 154, rfl⟩
abbrev main_cst_28 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩

abbrev nD : Nat := 1
abbrev τ : Topo := Topo.v7x

variable {F : FTy → Type} [FloatOps F]

class Facts₀ : Prop where
  bcast_S_S32x1024x64 : S_.BroadcastsInDim S32x1024x64 (![] : Fin 0 → Fin S32x1024x64.rank)
  concatenates_S32x1024x192_S32x1024x64_S32x1024x256_d2 : Shape.Concatenates [S32x1024x192, S32x1024x64] S32x1024x256 2
  bcast_S_S32x192 : S_.BroadcastsInDim S32x192 (![] : Fin 0 → Fin S32x192.rank)
  concatenates_S32x192_S32x64_S32x256_d1 : Shape.Concatenates [S32x192, S32x64] S32x256 1
  bcast_S32x256_S32x1x256_0_2 : S32x256.BroadcastsInDim S32x1x256 (![0, 2] : Fin 2 → Fin S32x1x256.rank)
  concatenates_S32x1024x256_S32x1x256_S32x1025x256_d1 : Shape.Concatenates [S32x1024x256, S32x1x256] S32x1025x256 1
  bcast_S1025_S1025x1_0 : S1025.BroadcastsInDim S1025x1 (![0] : Fin 1 → Fin S1025x1.rank)
  bcast_S1025_S1x1025_1 : S1025.BroadcastsInDim S1x1025 (![1] : Fin 1 → Fin S1x1025.rank)
  bcast_S1025x1_S1025x1025_0_1 : S1025x1.BroadcastsInDim S1025x1025 (![0, 1] : Fin 2 → Fin S1025x1025.rank)
  bcast_S1x1025_S1025x1025_0_1 : S1x1025.BroadcastsInDim S1025x1025 (![0, 1] : Fin 2 → Fin S1025x1025.rank)
  bcast_S_S1 : S_.BroadcastsInDim S1 (![] : Fin 0 → Fin S1.rank)
  concatenates_S1_S1_S2_d0 : Shape.Concatenates [S1, S1] S2 0
  bcast_S_S1024 : S_.BroadcastsInDim S1024 (![] : Fin 0 → Fin S1024.rank)
  bcast_S_S1025x1025 : S_.BroadcastsInDim S1025x1025 (![] : Fin 0 → Fin S1025x1025.rank)
  bcast_S32_S32x1_0 : S32.BroadcastsInDim S32x1 (![0] : Fin 1 → Fin S32x1.rank)
  bcast_S1x1025_S32x1025_0_1 : S1x1025.BroadcastsInDim S32x1025 (![0, 1] : Fin 2 → Fin S32x1025.rank)
  bcast_S32x1_S32x1025_0_1 : S32x1.BroadcastsInDim S32x1025 (![0, 1] : Fin 2 → Fin S32x1025.rank)
  bcast_S_S1x1025 : S_.BroadcastsInDim S1x1025 (![] : Fin 0 → Fin S1x1025.rank)
  bcast_S32x1025_S32x1x1025_0_2 : S32x1025.BroadcastsInDim S32x1x1025 (![0, 2] : Fin 2 → Fin S32x1x1025.rank)
  bcast_S1025x1025_S1x1025x1025_1_2 : S1025x1025.BroadcastsInDim S1x1025x1025 (![1, 2] : Fin 2 → Fin S1x1025x1025.rank)
  bcast_S32x1x1025_S32x1025x1025_0_1_2 : S32x1x1025.BroadcastsInDim S32x1025x1025 (![0, 1, 2] : Fin 3 → Fin S32x1025x1025.rank)
  bcast_S1x1025x1025_S32x1025x1025_0_1_2 : S1x1025x1025.BroadcastsInDim S32x1025x1025 (![0, 1, 2] : Fin 3 → Fin S32x1025x1025.rank)
  bcast_S_S1025x256 : S_.BroadcastsInDim S1025x256 (![] : Fin 0 → Fin S1025x256.rank)
  bcast_S_S1024x192 : S_.BroadcastsInDim S1024x192 (![] : Fin 0 → Fin S1024x192.rank)
  bcast_S_S64 : S_.BroadcastsInDim S64 (![] : Fin 0 → Fin S64.rank)
  bcast_S1025x256_S1x1025x256_1_2 : S1025x256.BroadcastsInDim S1x1025x256 (![1, 2] : Fin 2 → Fin S1x1025x256.rank)
  bcast_S_S1x1025x256 : S_.BroadcastsInDim S1x1025x256 (![] : Fin 0 → Fin S1x1025x256.rank)
  bcast_S1x1025x256_S32x1025x256_0_1_2 : S1x1025x256.BroadcastsInDim S32x1025x256 (![0, 1, 2] : Fin 3 → Fin S32x1025x256.rank)
  reducesTo_S32x1025x256_S32x1025_d2 : S32x1025x256.ReducesTo [2] S32x1025
  h_S_ : 0 < S_.numel
  bcast_S_S32x1025 : S_.BroadcastsInDim S32x1025 (![] : Fin 0 → Fin S32x1025.rank)
  bcast_S32x1025_S32x1025x1_0_1 : S32x1025.BroadcastsInDim S32x1025x1 (![0, 1] : Fin 2 → Fin S32x1025x1.rank)
  bcast_S32x1025x1_S32x1025x256_0_1_2 : S32x1025x1.BroadcastsInDim S32x1025x256 (![0, 1, 2] : Fin 3 → Fin S32x1025x256.rank)
  shapeCasts_S1x256x256_S256x256 : S1x256x256.ShapeCasts S256x256
  bcast_S256_S1x1x256_2 : S256.BroadcastsInDim S1x1x256 (![2] : Fin 1 → Fin S1x1x256.rank)
  bcast_S1x1x256_S32x1025x256_0_1_2 : S1x1x256.BroadcastsInDim S32x1025x256 (![0, 1, 2] : Fin 3 → Fin S32x1025x256.rank)
  slices_S32x1025x256_S32x1024x192_0_0_0 : S32x1025x256.Slices ![0, 0, 0] S32x1024x192
  slices_S32x1025x256_S32x1x64_0_1024_192 : S32x1025x256.Slices ![0, 1024, 192] S32x1x64
  shapeCasts_S32x1x64_S32x64 : S32x1x64.ShapeCasts S32x64
  scatter_S1025x1025_S2_S1024_0_1_01_0_wf : ScatterDims.WF S1025x1025 S2 S1024 [0] [1] [0, 1] 0
  scatter_S1025x1025_S2_S1024_0_0_01_0_wf : ScatterDims.WF S1025x1025 S2 S1024 [0] [0] [0, 1] 0
  scatter_S1025x256_S2_S1024x192_01_n_01_0_wf : ScatterDims.WF S1025x256 S2 S1024x192 [0, 1] [] [0, 1] 0
  scatter_S1025x256_S2_S64_0_0_01_0_wf : ScatterDims.WF S1025x256 S2 S64 [0] [0] [0, 1] 0
  dot_S32x1025x1025_S32x1025x256_S32x1025x256_2_1_1_2_0_0_wf : DotDims.WF S32x1025x1025 S32x1025x256 S32x1025x256 [2] [1] [1] [2] [0] [0]
  dot_S32x1025x256_S256x256_S32x1025x256_2_0_01_1_n_n_wf : DotDims.WF S32x1025x256 S256x256 S32x1025x256 [2] [0] [0, 1] [1] [] []

variable [Facts₀]

def scatter_S1025x1025_S2_S1024_0_1_01_0 : ScatterDims S1025x1025 S2 S1024 where
  updateWindowDims := [0]
  insertedWindowDims := [1]
  scatterDimsToOperandDims := [0, 1]
  indexVectorDim := 0
  wf := scatter_S1025x1025_S2_S1024_0_1_01_0_wf
def scatter_S1025x1025_S2_S1024_0_0_01_0 : ScatterDims S1025x1025 S2 S1024 where
  updateWindowDims := [0]
  insertedWindowDims := [0]
  scatterDimsToOperandDims := [0, 1]
  indexVectorDim := 0
  wf := scatter_S1025x1025_S2_S1024_0_0_01_0_wf
def scatter_S1025x256_S2_S1024x192_01_n_01_0 : ScatterDims S1025x256 S2 S1024x192 where
  updateWindowDims := [0, 1]
  insertedWindowDims := []
  scatterDimsToOperandDims := [0, 1]
  indexVectorDim := 0
  wf := scatter_S1025x256_S2_S1024x192_01_n_01_0_wf
def scatter_S1025x256_S2_S64_0_0_01_0 : ScatterDims S1025x256 S2 S64 where
  updateWindowDims := [0]
  insertedWindowDims := [0]
  scatterDimsToOperandDims := [0, 1]
  indexVectorDim := 0
  wf := scatter_S1025x256_S2_S64_0_0_01_0_wf
def dot_S32x1025x1025_S32x1025x256_S32x1025x256_2_1_1_2_0_0 : DotDims S32x1025x1025 S32x1025x256 S32x1025x256 where
  lhsContracting := [2]
  rhsContracting := [1]
  lhsNonContracting := [1]
  rhsNonContracting := [2]
  lhsBatch := [0]
  rhsBatch := [0]
  wf := dot_S32x1025x1025_S32x1025x256_S32x1025x256_2_1_1_2_0_0_wf
def dot_S32x1025x256_S256x256_S32x1025x256_2_0_01_1_n_n : DotDims S32x1025x256 S256x256 S32x1025x256 where
  lhsContracting := [2]
  rhsContracting := [0]
  lhsNonContracting := [0, 1]
  rhsNonContracting := [1]
  lhsBatch := []
  rhsBatch := []
  wf := dot_S32x1025x256_S256x256_S32x1025x256_2_0_01_1_n_n_wf

class Facts : Prop extends Facts₀ where

variable [Facts]
-- ==== Proof.KernelValue.lean ====
/-
  What the kernel's body leaves in its two output blocks, as pure terms of the blocks it loads.

  At every grid point the body assembles the joint logits in its scratch — the token block in rows 0..1023, columns
  0..191, zeros to its right, zeros under it, the intent row in row 1024, columns 192..255 — reads the scratch back whole,
  and stores into the two output blocks a slice of ONE [1025, 256] value computed from that read-back, the tag mask, the
  distance kernel, the weights, the bias and the member's length word. The four scratch stores tile the scratch, so the
  read-back is the function they restrict. Then: which part of which argument array each block the body is handed holds,
  at every grid point (the batch-indexed windows sit at block (t, 0, 0), the others are whole arrays), and the length
  word the body loads.
-/
import proofs.«420288_j73366631350576_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.KV

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The four stores into the scratch, last first: the intent row, the zeros under the token block, the zeros to its
    right, the token block. -/
def scratchPieces (x0 : Vec F S1x1024x192 .f32) (x1 : Vec F S1x1x64 .f32) : List (View.Piece (Elt F) S1025x256 .f32) :=
  [⟨Rect.unit ![1024, 192] S1x64.size inb_S1025x256_S1x64_1024_192, k0_pay9 x1⟩,
   ⟨Rect.unit ![1024, 0] S1x192.size inb_S1025x256_S1x192_1024_0, k0_pay8⟩,
   ⟨Rect.unit ![0, 192] S1024x64.size inb_S1025x256_S1024x64_0_192, k0_pay7⟩,
   ⟨Rect.unit ![0, 0] S1024x192.size inb_S1025x256_S1024x192_0_0, k0_pay6 x0⟩]

/-- The scratch as the body reads it back: what the four stores left. -/
def scratchVal (x0 : Vec F S1x1024x192 .f32) (x1 : Vec F S1x1x64 .f32) : Vec F S1025x256 .f32 :=
  View.canon (scratchPieces x0 x1)

/-- The length word the body loads at grid point i: entry i of the prefetched table. -/
def lenAt (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0
    (Shape.Idx.first (numel1_S1 ▸ Nat.one_pos))

/-- Every index of the scratch lies in one of the four stores' rectangles: by cases on its row (below 1024 or the last) and
    its column (below 192 or not). -/
theorem scratch_cover (x0 : Vec F S1x1024x192 .f32) (x1 : Vec F S1x1x64 .f32) (y : S1025x256.Idx) :
    ∃ p ∈ scratchPieces x0 x1, y ∈ p.1.set := by
  have h0 : (y 0).val < 1025 := (y 0).isLt
  have h1 : (y 1).val < 256 := (y 1).isLt
  by_cases hr : (y 0).val < 1024 <;> by_cases hl : (y 1).val < 192
  · refine ⟨⟨Rect.unit ![0, 0] S1024x192.size inb_S1025x256_S1024x192_0_0, k0_pay6 x0⟩, by simp [scratchPieces], ?_⟩
    rw [Rect.mem_set_unit]
    intro a
    match a with
    | ⟨0, _⟩ => exact ⟨Nat.zero_le _, by show (y 0).val < 0 + 1024; omega⟩
    | ⟨1, _⟩ => exact ⟨Nat.zero_le _, by show (y 1).val < 0 + 192; omega⟩
  · refine ⟨⟨Rect.unit ![0, 192] S1024x64.size inb_S1025x256_S1024x64_0_192, k0_pay7⟩, by simp [scratchPieces], ?_⟩
    rw [Rect.mem_set_unit]
    intro a
    match a with
    | ⟨0, _⟩ => exact ⟨Nat.zero_le _, by show (y 0).val < 0 + 1024; omega⟩
    | ⟨1, _⟩ => exact ⟨by show 192 ≤ (y 1).val; omega, by show (y 1).val < 192 + 64; omega⟩
  · refine ⟨⟨Rect.unit ![1024, 0] S1x192.size inb_S1025x256_S1x192_1024_0, k0_pay8⟩, by simp [scratchPieces], ?_⟩
    rw [Rect.mem_set_unit]
    intro a
    match a with
    | ⟨0, _⟩ => exact ⟨by show 1024 ≤ (y 0).val; omega, by show (y 0).val < 1024 + 1; omega⟩
    | ⟨1, _⟩ => exact ⟨Nat.zero_le _, by show (y 1).val < 0 + 192; omega⟩
  · refine ⟨⟨Rect.unit ![1024, 192] S1x64.size inb_S1025x256_S1x64_1024_192, k0_pay9 x1⟩, by simp [scratchPieces], ?_⟩
    rw [Rect.mem_set_unit]
    intro a
    match a with
    | ⟨0, _⟩ => exact ⟨by show 1024 ≤ (y 0).val; omega, by show (y 0).val < 1024 + 1; omega⟩
    | ⟨1, _⟩ => exact ⟨by show 192 ≤ (y 1).val; omega, by show (y 1).val < 192 + 64; omega⟩

/-- A whole load of the scratch after the four stores reads what they left. -/
theorem readCov_scratch {sg : RefSig} {κ : Kind} {sp : Space} (v : View sg κ sp S1025x256 .f32)
    (x0 : Vec F S1x1024x192 .f32) (x1 : Vec F S1x1x64 .f32) :
    v.readCov (scratchPieces x0 x1) (Rect.unit ![0, 0] S1025x256.size inb_S1025x256_S1025x256_0_0).toLoadRect
      = scratchVal x0 x1 := by
  rw [View.readCov_eq_canon_ld _ _ _ (scratch_cover x0 x1), View.ld_unit_zero hz2]
  rfl

/-- Output block 0 after the body: rows 0..1023, columns 0..191 of the body's value, as a [1, 1024, 192] block. -/
theorem out6_eq (c : Dev nD) (i : grid0.Coords) (arg2 : Memref sig .tc .vmem S1x1024x192 .f32) (harg2 : arg2.IsWhole) (arg3 : Memref sig .tc .vmem S1x1x64 .f32) (harg3 : arg3.IsWhole) (arg4 : Memref sig .tc .vmem S1025x256 .f32) (harg4 : arg4.IsWhole) (arg5 : Memref sig .tc .vmem S1025x1025 .bf16) (harg5 : arg5.IsWhole) (arg6 : Memref sig .tc .vmem S1x256x256 .f32) (harg6 : arg6.IsWhole) (arg7 : Memref sig .tc .vmem S256 .f32) (harg7 : arg7.IsWhole) (arg8 : Memref sig .tc .vmem S1x1024x192 .f32) (harg8 : arg8.IsWhole) (arg9 : Memref sig .tc .vmem S1x1x64 .f32) (harg9 : arg9.IsWhole) (arg10 : Memref sig .tc .vmem S1025x256 .f32) (harg10 : arg10.IsWhole)
    (x0 : Vec F S1x1024x192 .f32) (x1 : Vec F S1x1x64 .f32) (x2 : Vec F S1025x256 .f32) (x3 : Vec F S1025x1025 .bf16) (x4 : Vec F S1x256x256 .f32) (x5 : Vec F S256 .f32) (xt0 : TbBuf0 (F := F) c tbM0_0) :
    out0_A_6 c i arg2 harg2 arg3 harg3 arg4 harg4 arg5 harg5 arg6 harg6 arg7 harg7 arg8 harg8 arg9 harg9 arg10 harg10 x0 x1 x2 x3 x4 x5 xt0
      = k0_pay2 (k0_pay5 x2) (k0_pay10 x2 (scratchVal x0 x1)) x5 (k0_pay12 x4)
          (k0_pay13 (lenAt c i xt0) (k0_pay4 x2) (k0_pay5 x2) (k0_pay10 x2 (scratchVal x0 x1)) (k0_pay11 x3) x4 x5) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5 xt0)]
  unfold kernelRun0_A
  dsimp only
  sl_unfold_words
  rw [View.canon_unit_zero hz3]
  simp only [View.readAt_eq_ld, harg2.read_unread, harg3.read_unread, harg4.read_unread, harg5.read_unread,
    harg6.read_unread, harg7.read_unread, View.ld_unit_zero (S := S1x1024x192) hz3, View.ld_unit_zero (S := S1x1x64) hz3,
    View.ld_unit_zero (S := S1025x256) hz2, View.ld_unit_zero (S := S1025x1025) hz2,
    View.ld_unit_zero (S := S1x256x256) hz3, View.ld_unit_zero (S := S256) hz1]
  rw [← readCov_scratch arg10.view x0 x1]
  rfl

/-- Output block 1 after the body: row 1024, columns 192..255 of the body's value, as a [1, 1, 64] block. -/
theorem out7_eq (c : Dev nD) (i : grid0.Coords) (arg2 : Memref sig .tc .vmem S1x1024x192 .f32) (harg2 : arg2.IsWhole) (arg3 : Memref sig .tc .vmem S1x1x64 .f32) (harg3 : arg3.IsWhole) (arg4 : Memref sig .tc .vmem S1025x256 .f32) (harg4 : arg4.IsWhole) (arg5 : Memref sig .tc .vmem S1025x1025 .bf16) (harg5 : arg5.IsWhole) (arg6 : Memref sig .tc .vmem S1x256x256 .f32) (harg6 : arg6.IsWhole) (arg7 : Memref sig .tc .vmem S256 .f32) (harg7 : arg7.IsWhole) (arg8 : Memref sig .tc .vmem S1x1024x192 .f32) (harg8 : arg8.IsWhole) (arg9 : Memref sig .tc .vmem S1x1x64 .f32) (harg9 : arg9.IsWhole) (arg10 : Memref sig .tc .vmem S1025x256 .f32) (harg10 : arg10.IsWhole)
    (x0 : Vec F S1x1024x192 .f32) (x1 : Vec F S1x1x64 .f32) (x2 : Vec F S1025x256 .f32) (x3 : Vec F S1025x1025 .bf16) (x4 : Vec F S1x256x256 .f32) (x5 : Vec F S256 .f32) (xt0 : TbBuf0 (F := F) c tbM0_0) :
    out0_A_7 c i arg2 harg2 arg3 harg3 arg4 harg4 arg5 harg5 arg6 harg6 arg7 harg7 arg8 harg8 arg9 harg9 arg10 harg10 x0 x1 x2 x3 x4 x5 xt0
      = k0_pay3 (k0_pay5 x2) (k0_pay10 x2 (scratchVal x0 x1)) x5 (k0_pay12 x4)
          (k0_pay13 (lenAt c i xt0) (k0_pay4 x2) (k0_pay5 x2) (k0_pay10 x2 (scratchVal x0 x1)) (k0_pay11 x3) x4 x5) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 xt0)]
  unfold kernelRun0_A
  dsimp only
  sl_unfold_words
  rw [View.canon_unit_zero hz3]
  simp only [View.readAt_eq_ld, harg2.read_unread, harg3.read_unread, harg4.read_unread, harg5.read_unread,
    harg6.read_unread, harg7.read_unread, View.ld_unit_zero (S := S1x1024x192) hz3, View.ld_unit_zero (S := S1x1x64) hz3,
    View.ld_unit_zero (S := S1025x256) hz2, View.ld_unit_zero (S := S1025x1025) hz2,
    View.ld_unit_zero (S := S1x256x256) hz3, View.ld_unit_zero (S := S256) hz1]
  rw [← readCov_scratch arg10.view x0 x1]
  rfl

/-! ## The scratch read back, entry by entry -/

/-- The joint logits of the member from its two blocks: the token block in rows 0..1023, columns 0..191; the intent row in
    row 1024, columns 192..255; zero elsewhere. -/
def jointK (x0 : Vec F S1x1024x192 .f32) (x1 : Vec F S1x1x64 .f32) (y : S1025x256.Idx) : Elt F .f32 :=
  if hr : (y 0).val < 1024 then
    (if hl : (y 1).val < 192 then
      x0 (ValueIdx.ix3 (0 : Fin 1) (⟨(y 0).val, hr⟩ : Fin 1024) (⟨(y 1).val, hl⟩ : Fin 192))
     else Scalar.ofBits .f32 0x00000000#32)
  else
    (if hl : (y 1).val < 192 then Scalar.ofBits .f32 0x00000000#32
     else x1 (ValueIdx.ix3 (0 : Fin 1) (0 : Fin 1)
       (⟨(y 1).val - 192, by have h : (y 1).val < 256 := (y 1).isLt; omega⟩ : Fin 64)))

/-- The intent row's store writes the joint logits on row 1024, columns 192..255. -/
theorem piece_intent (x0 : Vec F S1x1024x192 .f32) (x1 : Vec F S1x1x64 .f32) (x : S1x64.Idx) :
    k0_pay9 x1 x = jointK x0 x1 ((Rect.unit (s := S1025x256) ![1024, 192] S1x64.size inb_S1025x256_S1x64_1024_192).emb x) := by
  have h0 : (x 0).val < 1 := (x 0).isLt
  have h1 : (x 1).val < 64 := (x 1).isLt
  unfold jointK
  rw [dif_neg (by show ¬ (1024 + 1 * (x 0).val < 1024); omega), dif_neg (by show ¬ (192 + 1 * (x 1).val < 192); omega)]
  unfold k0_pay9
  rw [shapeCast_self]
  refine (shapeCast_dropUnit_apply ![1, 64] x1 _ x).trans ?_
  congr 1
  funext a
  apply Fin.ext
  match a with
  | ⟨0, _⟩ => rfl
  | ⟨1, _⟩ => show (x 0).val = 0; omega
  | ⟨2, _⟩ => show (x 1).val = 192 + 1 * (x 1).val - 192; omega

/-- The store under the token block writes zeros on row 1024, columns 0..191. -/
theorem piece_below (x0 : Vec F S1x1024x192 .f32) (x1 : Vec F S1x1x64 .f32) (x : S1x192.Idx) :
    (k0_pay8 (F := F)) x = jointK x0 x1 ((Rect.unit (s := S1025x256) ![1024, 0] S1x192.size inb_S1025x256_S1x192_1024_0).emb x) := by
  have h0 : (x 0).val < 1 := (x 0).isLt
  have h1 : (x 1).val < 192 := (x 1).isLt
  unfold jointK
  rw [dif_neg (by show ¬ (1024 + 1 * (x 0).val < 1024); omega), dif_pos (by show 0 + 1 * (x 1).val < 192; omega)]
  unfold k0_pay8
  rw [shapeCast_self]
  rfl

/-- The store right of the token block writes zeros on rows 0..1023, columns 192..255. -/
theorem piece_right (x0 : Vec F S1x1024x192 .f32) (x1 : Vec F S1x1x64 .f32) (x : S1024x64.Idx) :
    (k0_pay7 (F := F)) x = jointK x0 x1 ((Rect.unit (s := S1025x256) ![0, 192] S1024x64.size inb_S1025x256_S1024x64_0_192).emb x) := by
  have h0 : (x 0).val < 1024 := (x 0).isLt
  have h1 : (x 1).val < 64 := (x 1).isLt
  unfold jointK
  rw [dif_pos (by show 0 + 1 * (x 0).val < 1024; omega), dif_neg (by show ¬ (192 + 1 * (x 1).val < 192); omega)]
  unfold k0_pay7
  rw [shapeCast_self]
  rfl

/-- The token block's store writes the joint logits on rows 0..1023, columns 0..191. -/
theorem piece_token (x0 : Vec F S1x1024x192 .f32) (x1 : Vec F S1x1x64 .f32) (x : S1024x192.Idx) :
    k0_pay6 x0 x = jointK x0 x1 ((Rect.unit (s := S1025x256) ![0, 0] S1024x192.size inb_S1025x256_S1024x192_0_0).emb x) := by
  have h0 : (x 0).val < 1024 := (x 0).isLt
  have h1 : (x 1).val < 192 := (x 1).isLt
  unfold jointK
  rw [dif_pos (by show 0 + 1 * (x 0).val < 1024; omega), dif_pos (by show 0 + 1 * (x 1).val < 192; omega)]
  unfold k0_pay6
  rw [shapeCast_self]
  refine (shapeCast_dropUnit_apply ![1024, 192] x0 _ x).trans ?_
  congr 1
  funext a
  apply Fin.ext
  match a with
  | ⟨0, _⟩ => rfl
  | ⟨1, _⟩ => show (x 0).val = 0 + 1 * (x 0).val; omega
  | ⟨2, _⟩ => show (x 1).val = 0 + 1 * (x 1).val; omega

/-- Each of the four stores writes the restriction of the joint logits to its rectangle, and the rectangles tile the
    scratch: so the scratch reads back as the joint logits. -/
theorem scratchVal_eq (x0 : Vec F S1x1024x192 .f32) (x1 : Vec F S1x1x64 .f32) : scratchVal x0 x1 = jointK x0 x1 := by
  funext y
  unfold scratchVal
  refine View.canon_apply_of_pieces (jointK x0 x1) (scratchPieces x0 x1) ?_ y (scratch_cover x0 x1 y)
  intro p hp x
  simp only [scratchPieces, List.mem_cons, List.mem_nil_iff, or_false] at hp
  rcases hp with rfl | rfl | rfl | rfl
  · exact piece_intent x0 x1 x
  · exact piece_below x0 x1 x
  · exact piece_right x0 x1 x
  · exact piece_token x0 x1 x

/-! ## The blocks the body is handed at a grid point -/

variable (m : (ℓ : Loc nD τ sig) → Buf (Elt F) ℓ) (ρ : Dev nD → PrngReg)

/-- The printed index maps, decided over the 32 grid points: the batch-indexed windows sit at block (t, 0, 0), the others
    at block 0. -/
theorem idx_facts : ∀ t : Fin grid0.N,
    cc0_transform_0 (grid0.coords t) = ![t.val, 0, 0] ∧ cc0_transform_1 (grid0.coords t) = ![t.val, 0, 0]
    ∧ cc0_transform_2 (grid0.coords t) = ![0, 0] ∧ cc0_transform_3 (grid0.coords t) = ![0, 0]
    ∧ cc0_transform_4 (grid0.coords t) = ![0, 0, 0] ∧ cc0_transform_5 (grid0.coords t) = ![0]
    ∧ cc0_transform_6 (grid0.coords t) = ![t.val, 0, 0] ∧ cc0_transform_7 (grid0.coords t) = ![t.val, 0, 0]
    ∧ k0_off1 (grid0.coords t) = ![t.val] := by
  decide +kernel

/-- The input blocks at point t, at their literal types. -/
abbrev blk0 (hO : Ok m) (c : Dev nD) (t : Fin (cfgM m hO).N) : Vec F S1x1024x192 .f32 := iblk m hO c 0 t
abbrev blk1 (hO : Ok m) (c : Dev nD) (t : Fin (cfgM m hO).N) : Vec F S1x1x64 .f32 := iblk m hO c 1 t
abbrev blk2 (hO : Ok m) (c : Dev nD) (t : Fin (cfgM m hO).N) : Vec F S1025x256 .f32 := iblk m hO c 2 t
abbrev blk3 (hO : Ok m) (c : Dev nD) (t : Fin (cfgM m hO).N) : Vec F S1025x1025 .bf16 := iblk m hO c 3 t
abbrev blk4 (hO : Ok m) (c : Dev nD) (t : Fin (cfgM m hO).N) : Vec F S1x256x256 .f32 := iblk m hO c 4 t
abbrev blk5 (hO : Ok m) (c : Dev nD) (t : Fin (cfgM m hO).N) : Vec F S256 .f32 := iblk m hO c 5 t

/-- Input block 0 at point t is batch member t of the token logits. -/
theorem blk0_eq (hO : Ok m) (c : Dev nD) (t : Fin (cfgM m hO).N) :
    blk0 m hO c t = fun (j : S1x1024x192.Idx) =>
      m ((c : Thread nD τ).loc main_arg0) (ix3 (⟨t.val, t.isLt⟩ : Fin 32) (⟨(j 1).val, (j 1).isLt⟩ : Fin 1024) (⟨(j 2).val, (j 2).isLt⟩ : Fin 192)) := by
  funext j
  show V m c main_arg0 ((((cfgM m hO).win 0).blk t).view.emb j) = m (c.tc.loc main_arg0) _
  rw [V_main_arg0]
  congr 1
  funext a
  apply Fin.ext
  obtain ⟨e0, -⟩ := idx_facts t
  have h0 : (j 0).val < 1 := (j 0).isLt
  match a with
  | ⟨0, _⟩ => show cc0_transform_0 (grid0.coords t) 0 * 1 + 1 * (j 0).val = t.val; rw [e0]; show t.val * 1 + 1 * (j 0).val = t.val; omega
  | ⟨1, _⟩ => show cc0_transform_0 (grid0.coords t) 1 * 1024 + 1 * (j 1).val = (j 1).val; rw [e0]; show 0 * 1024 + 1 * (j 1).val = (j 1).val; omega
  | ⟨2, _⟩ => show cc0_transform_0 (grid0.coords t) 2 * 192 + 1 * (j 2).val = (j 2).val; rw [e0]; show 0 * 192 + 1 * (j 2).val = (j 2).val; omega

/-- Input block 1 at point t is row t of the intent logits as the region finds them (a [32, 1, 64] array). -/
theorem blk1_eq (hO : Ok m) (c : Dev nD) (t : Fin (cfgM m hO).N) :
    blk1 m hO c t = fun (j : S1x1x64.Idx) =>
      V m c main_v0 (ix3 (⟨t.val, t.isLt⟩ : Fin 32) (0 : Fin 1) (⟨(j 2).val, (j 2).isLt⟩ : Fin 64)) := by
  funext j
  show V m c main_v0 ((((cfgM m hO).win 1).blk t).view.emb j) = V m c main_v0 _
  congr 1
  funext a
  apply Fin.ext
  obtain ⟨-, e1, -⟩ := idx_facts t
  have h0 : (j 0).val < 1 := (j 0).isLt
  have h1 : (j 1).val < 1 := (j 1).isLt
  match a with
  | ⟨0, _⟩ => show cc0_transform_1 (grid0.coords t) 0 * 1 + 1 * (j 0).val = t.val; rw [e1]; show t.val * 1 + 1 * (j 0).val = t.val; omega
  | ⟨1, _⟩ => show cc0_transform_1 (grid0.coords t) 1 * 1 + 1 * (j 1).val = 0; rw [e1]; show 0 * 1 + 1 * (j 1).val = 0; omega
  | ⟨2, _⟩ => show cc0_transform_1 (grid0.coords t) 2 * 64 + 1 * (j 2).val = (j 2).val; rw [e1]; show 0 * 64 + 1 * (j 2).val = (j 2).val; omega

/-- Input block 2 at every point is the whole tag mask as the region finds it. -/
theorem blk2_eq (hO : Ok m) (c : Dev nD) (t : Fin (cfgM m hO).N) : blk2 m hO c t = V m c main_v11 := by
  funext j
  show V m c main_v11 ((((cfgM m hO).win 2).blk t).view.emb j) = V m c main_v11 j
  congr 1
  funext a
  apply Fin.ext
  obtain ⟨-, -, e2, -⟩ := idx_facts t
  match a with
  | ⟨0, _⟩ => show cc0_transform_2 (grid0.coords t) 0 * 1025 + 1 * (j 0).val = (j 0).val; rw [e2]; show 0 * 1025 + 1 * (j 0).val = (j 0).val; omega
  | ⟨1, _⟩ => show cc0_transform_2 (grid0.coords t) 1 * 256 + 1 * (j 1).val = (j 1).val; rw [e2]; show 0 * 256 + 1 * (j 1).val = (j 1).val; omega

/-- Input block 3 at every point is the whole distance kernel as the region finds it. -/
theorem blk3_eq (hO : Ok m) (c : Dev nD) (t : Fin (cfgM m hO).N) : blk3 m hO c t = V m c main_v34 := by
  funext j
  show V m c main_v34 ((((cfgM m hO).win 3).blk t).view.emb j) = V m c main_v34 j
  congr 1
  funext a
  apply Fin.ext
  obtain ⟨-, -, -, e3, -⟩ := idx_facts t
  match a with
  | ⟨0, _⟩ => show cc0_transform_3 (grid0.coords t) 0 * 1025 + 1 * (j 0).val = (j 0).val; rw [e3]; show 0 * 1025 + 1 * (j 0).val = (j 0).val; omega
  | ⟨1, _⟩ => show cc0_transform_3 (grid0.coords t) 1 * 1025 + 1 * (j 1).val = (j 1).val; rw [e3]; show 0 * 1025 + 1 * (j 1).val = (j 1).val; omega

/-- Input block 4 at every point is the whole weight array. -/
theorem blk4_eq (hO : Ok m) (c : Dev nD) (t : Fin (cfgM m hO).N) : blk4 m hO c t = m ((c : Thread nD τ).loc main_arg3) := by
  funext j
  show V m c main_arg3 ((((cfgM m hO).win 4).blk t).view.emb j) = m (c.tc.loc main_arg3) j
  rw [V_main_arg3]
  congr 1
  funext a
  apply Fin.ext
  obtain ⟨-, -, -, -, e4, -⟩ := idx_facts t
  match a with
  | ⟨0, _⟩ => show cc0_transform_4 (grid0.coords t) 0 * 1 + 1 * (j 0).val = (j 0).val; rw [e4]; show 0 * 1 + 1 * (j 0).val = (j 0).val; omega
  | ⟨1, _⟩ => show cc0_transform_4 (grid0.coords t) 1 * 256 + 1 * (j 1).val = (j 1).val; rw [e4]; show 0 * 256 + 1 * (j 1).val = (j 1).val; omega
  | ⟨2, _⟩ => show cc0_transform_4 (grid0.coords t) 2 * 256 + 1 * (j 2).val = (j 2).val; rw [e4]; show 0 * 256 + 1 * (j 2).val = (j 2).val; omega

/-- Input block 5 at every point is the whole bias. -/
theorem blk5_eq (hO : Ok m) (c : Dev nD) (t : Fin (cfgM m hO).N) : blk5 m hO c t = m ((c : Thread nD τ).loc main_arg4) := by
  funext j
  show V m c main_arg4 ((((cfgM m hO).win 5).blk t).view.emb j) = m (c.tc.loc main_arg4) j
  rw [V_main_arg4]
  congr 1
  funext a
  apply Fin.ext
  obtain ⟨-, -, -, -, -, e5, -⟩ := idx_facts t
  match a with
  | ⟨0, _⟩ => show cc0_transform_5 (grid0.coords t) 0 * 256 + 1 * (j 0).val = (j 0).val; rw [e5]; show 0 * 256 + 1 * (j 0).val = (j 0).val; omega

/-- The intent logits as the region finds them: the [32, 64] argument with a unit axis inserted. -/
theorem V_v0 (c : Dev nD) : V m c main_v0
    = broadcastInDim S32x1x64 ![0, 2] bcast_S32x64_S32x1x64_0_2 (m ((c : Thread nD τ).loc main_arg1)) := by
  show StableHlo.after hostOps0 (fun b => m (c, b)) (Proc.devRef .tc main_v0) = _
  after_results

/-- The length word the body loads at point t is entry t of the length argument. -/
theorem len_eq (hO : Ok m) (c : Dev nD) (t : Fin (cfgM m hO).N) :
    lenAt c (grid0.coords t) (tbl m 0) = m ((c : Thread nD τ).loc main_arg2) (ix1 (⟨t.val, t.isLt⟩ : Fin 32)) := by
  obtain rfl : c = 0 := Subsingleton.elim _ _
  unfold lenAt
  show V m (0 : Dev nD) main_arg2 ((Rect.unit (s := S32) (k0_off1 (grid0.coords t)) S1.size (k0_off1_inb (grid0.coords t))).toLoadRect.idx (Shape.Idx.first (numel1_S1 ▸ Nat.one_pos))) = _
  rw [V_main_arg2]
  congr 1
  funext a
  apply Fin.ext
  obtain ⟨-, -, -, -, -, -, -, -, e8⟩ := idx_facts t
  match a with
  | ⟨0, _⟩ =>
    show k0_off1 (grid0.coords t) 0 + 1 * 0 = t.val
    rw [e8]
    rfl

end Cert.KernelIdeal.KV

end
-- ==== Proof.LibSoftmax.lean ====
/-
  The row softmax of a stack of matrices, member by member.

  A softmax along the last axis, written the host's way over a whole stack [G, N, L] — the row maximum from -∞ (joined
  once more with -∞), the exponential of the difference, the row sum from 0, the quotient — is, at member g of the
  stack, the same softmax written the vector unit's way on the member [N, L]: both are, at (r, l),
  exp (y r l - max_k y r k) / Σ_k exp (y r k - max_k y r k) on the extended reals.
-/
import Idealize.ShloMosaic.PureOps.Ideal.Laws
import Idealize.ShloMosaic.Lib.ValueIdx
import Idealize.ShloMosaic.Lib.Pipeline.Value
import Idealize.ShloMosaic.Lib.StackMember
import Idealize.ShloMosaic.Lib.IdealHost

noncomputable section

open scoped BigOperators

namespace Cert.LibSoftmax

open Idealize.ShloMosaic Idealize.ShloMosaic.ValueIdx Idealize.ShloMosaic.StackMember

variable {G N L : Nat}

/-- The softmax of each row of an [N, L] matrix, as a vector unit computes it: lane maximum from -∞, subtract, exp,
    lane sum from 0, divide. -/
def rowSoftmax (y : FVec Ideal ⟨2, ![N, L]⟩ .f32)
    (hR : (⟨2, ![N, L]⟩ : Shape).Reduces [1] ⟨1, ![N]⟩) (hC : (⟨1, ![N]⟩ : Shape).ShapeCasts ⟨2, ![N, 1]⟩)
    (hB : (⟨2, ![N, 1]⟩ : Shape).Broadcasts ⟨2, ![N, L]⟩) (hφ : FKind.Formats .f32)
    (hmax : (0xFF800000#32 : BitVec 32) = FKind.maximumf.neutral .f32 hφ)
    (hadd : (0x00000000#32 : BitVec 32) = FKind.add.neutral .f32 hφ) : FVec Ideal ⟨2, ![N, L]⟩ .f32 :=
  divf
    (exp (subf y (broadcastTo ⟨2, ![N, L]⟩ (shapeCast ⟨2, ![N, 1]⟩
      (multiReduction .maximumf [1] ⟨1, ![N]⟩ y 0xFF800000#32 hR hφ hmax) hC) hB)))
    (broadcastTo ⟨2, ![N, L]⟩ (shapeCast ⟨2, ![N, 1]⟩
      (multiReduction .add [1] ⟨1, ![N]⟩
        (exp (subf y (broadcastTo ⟨2, ![N, L]⟩ (shapeCast ⟨2, ![N, 1]⟩
          (multiReduction .maximumf [1] ⟨1, ![N]⟩ y 0xFF800000#32 hR hφ hmax) hC) hB)))
        0x00000000#32 hR hφ hadd) hC) hB)

/-- The softmax along the last axis of a stack [G, N, L], as the host computes it. -/
def stackSoftmax (Y : FVec Ideal ⟨3, ![G, N, L]⟩ .f32)
    (hT : (⟨3, ![G, N, L]⟩ : Shape).ReducesTo [2] ⟨2, ![G, N]⟩) (hu : 0 < (⟨0, ![]⟩ : Shape).numel)
    (hb0 : (⟨0, ![]⟩ : Shape).BroadcastsInDim ⟨2, ![G, N]⟩ (![] : Fin 0 → Fin (⟨2, ![G, N]⟩ : Shape).rank))
    (hb1 : (⟨2, ![G, N]⟩ : Shape).BroadcastsInDim ⟨3, ![G, N, 1]⟩ (![0, 1] : Fin 2 → Fin (⟨3, ![G, N, 1]⟩ : Shape).rank))
    (hb2 : (⟨3, ![G, N, 1]⟩ : Shape).BroadcastsInDim ⟨3, ![G, N, L]⟩ (![0, 1, 2] : Fin 3 → Fin (⟨3, ![G, N, L]⟩ : Shape).rank)) :
    FVec Ideal ⟨3, ![G, N, L]⟩ .f32 :=
  Host.divf
    (Host.exp (subf Y (broadcastInDim ⟨3, ![G, N, L]⟩ ![0, 1, 2] hb2 (broadcastInDim ⟨3, ![G, N, 1]⟩ ![0, 1] hb1
      (maximumf (broadcastInDim ⟨2, ![G, N]⟩ ![] hb0 (constant ⟨0, ![]⟩ .f32 0xFF800000#32))
        (Host.reduce FloatOps.maximumf Y (constant ⟨0, ![]⟩ .f32 0xFF800000#32) hT hu))))))
    (broadcastInDim ⟨3, ![G, N, L]⟩ ![0, 1, 2] hb2 (broadcastInDim ⟨3, ![G, N, 1]⟩ ![0, 1] hb1
      (Host.reduceAdd
        (Host.exp (subf Y (broadcastInDim ⟨3, ![G, N, L]⟩ ![0, 1, 2] hb2 (broadcastInDim ⟨3, ![G, N, 1]⟩ ![0, 1] hb1
          (maximumf (broadcastInDim ⟨2, ![G, N]⟩ ![] hb0 (constant ⟨0, ![]⟩ .f32 0xFF800000#32))
            (Host.reduce FloatOps.maximumf Y (constant ⟨0, ![]⟩ .f32 0xFF800000#32) hT hu))))))
        (constant ⟨0, ![]⟩ .f32 0x00000000#32) hT hu)))

/-- A value on [G, N], copied along a new unit axis and then along the last axis to [G, N, L], reads at (g, r, l) the
    value at (g, r). -/
theorem bcastStack_apply {α : Type} (x : (⟨2, ![G, N]⟩ : Shape).Idx → α)
    (hb1 : (⟨2, ![G, N]⟩ : Shape).BroadcastsInDim ⟨3, ![G, N, 1]⟩ (![0, 1] : Fin 2 → Fin (⟨3, ![G, N, 1]⟩ : Shape).rank))
    (hb2 : (⟨3, ![G, N, 1]⟩ : Shape).BroadcastsInDim ⟨3, ![G, N, L]⟩ (![0, 1, 2] : Fin 3 → Fin (⟨3, ![G, N, L]⟩ : Shape).rank))
    (g : Fin G) (r : Fin N) (l : Fin L) :
    broadcastInDim ⟨3, ![G, N, L]⟩ ![0, 1, 2] hb2 (broadcastInDim ⟨3, ![G, N, 1]⟩ ![0, 1] hb1 x) (ix3 g r l) = x (ix2 g r) := by
  have hg : g.val < G := g.isLt
  have hr : r.val < N := r.isLt
  refine (broadcastInDim_apply ![0, 1, 2] hb2 _ (ix3 g r l) (ix3 g r (0 : Fin 1)) ?_).trans
    (broadcastInDim_apply ![0, 1] hb1 x (ix3 g r (0 : Fin 1)) (ix2 g r) ?_)
  · intro a
    match a with
    | ⟨0, _⟩ =>
      show g.val = if G = 1 then 0 else g.val
      split
      · omega
      · rfl
    | ⟨1, _⟩ =>
      show r.val = if N = 1 then 0 else r.val
      split
      · omega
      · rfl
    | ⟨2, _⟩ =>
      show 0 = if (1 : Nat) = 1 then 0 else l.val
      rw [if_pos rfl]
  · intro a
    match a with
    | ⟨0, _⟩ =>
      show g.val = if G = 1 then 0 else g.val
      split
      · omega
      · rfl
    | ⟨1, _⟩ =>
      show r.val = if N = 1 then 0 else r.val
      split
      · omega
      · rfl

/-- A value on [N], viewed as a column [N, 1] and copied along the last axis to [N, L], reads at (r, l) the value at r. -/
theorem bcastRow_apply {α : Type} (x : (⟨1, ![N]⟩ : Shape).Idx → α)
    (hC : (⟨1, ![N]⟩ : Shape).ShapeCasts ⟨2, ![N, 1]⟩) (hB : (⟨2, ![N, 1]⟩ : Shape).Broadcasts ⟨2, ![N, L]⟩)
    (r : Fin N) (l : Fin L) :
    broadcastTo ⟨2, ![N, L]⟩ (shapeCast ⟨2, ![N, 1]⟩ x hC) hB (ix2 r l) = x (ix1 r) := by
  have hr : r.val < N := r.isLt
  refine (broadcastTo_apply _ hB (ix2 r l) (ix2 r (0 : Fin 1)) ?_).trans
    (shapeCast_apply x hC (ix2 r (0 : Fin 1)) (ix1 r) ?_)
  · intro a
    match a with
    | ⟨0, _⟩ =>
      show r.val = if N = 1 then 0 else r.val
      split
      · omega
      · rfl
    | ⟨1, _⟩ =>
      show 0 = if (1 : Nat) = 1 then 0 else l.val
      rw [if_pos rfl]
  · rw [Shape.rowMajor_val_one, Shape.rowMajor_val_two]
    show r.val = r.val * 1 + 0
    omega

/-- The host's maximum over the last axis of a stack [G, N, L], from the value the pattern 0xFF800000 encodes, is at (g, r)
    the fold of max from that value over the entries (g, r, k) of the row. -/
theorem hostRowMax_apply (Y : FVec Ideal ⟨3, ![G, N, L]⟩ .f32)
    (hT : (⟨3, ![G, N, L]⟩ : Shape).ReducesTo [2] ⟨2, ![G, N]⟩) (hu : 0 < (⟨0, ![]⟩ : Shape).numel)
    (g : Fin G) (r : Fin N) :
    Host.reduce FloatOps.maximumf Y (constant (F := Ideal) ⟨0, ![]⟩ .f32 0xFF800000#32) hT hu (ix2 g r)
      = (Finset.univ : Finset (Fin L)).fold max (Ideal.ofBits .f32 0xFF800000#32) (fun k => Y (ix3 g r k)) := by
  have h3 : (⟨3, ![G, N, L]⟩ : Shape).Reduces [2] ⟨2, ![G, N]⟩ := ⟨hT.1, Nat.two_pos, hT.2⟩
  rw [Host.reduce_eq_fold_single FloatOps.maximumf Y _ hT h3 hu (ix2 g r)]
  have e : (Y ∘ h3.lift (ix2 g r)) = fun k : Fin L => Y (ix3 g r k) := by
    funext k
    refine congrArg Y (funext fun a => Fin.ext ?_)
    match a with
    | ⟨0, _⟩ => rfl
    | ⟨1, _⟩ => rfl
    | ⟨2, _⟩ => rfl
  rw [e]
  rfl

/-- The vector unit's maximum over the lanes of an [N, L] matrix, from the value the pattern 0xFF800000 encodes, is at r
    the fold of max from that value over the entries (r, k) of the row. -/
theorem rowMax_apply (y : FVec Ideal ⟨2, ![N, L]⟩ .f32)
    (hR : (⟨2, ![N, L]⟩ : Shape).Reduces [1] ⟨1, ![N]⟩) (hφ : FKind.Formats .f32)
    (hmax : (0xFF800000#32 : BitVec 32) = FKind.maximumf.neutral .f32 hφ) (r : Fin N) :
    multiReduction .maximumf [1] ⟨1, ![N]⟩ y 0xFF800000#32 hR hφ hmax (ix1 r)
      = (Finset.univ : Finset (Fin L)).fold max (Ideal.ofBits .f32 0xFF800000#32) (fun k => y (ix2 r k)) := by
  rw [Ideal.multiReduction_maximumf_single y _ hR hφ hmax (ix1 r)]
  have e : (y ∘ hR.lift (ix1 r)) = fun k : Fin L => y (ix2 r k) := by
    funext k
    refine congrArg y (funext fun a => Fin.ext ?_)
    match a with
    | ⟨0, _⟩ => rfl
    | ⟨1, _⟩ => rfl
  rw [e]
  rfl

/-- The host's sum over the last axis of a stack [G, N, L], from the zero pattern, is at (g, r) the sum of the entries
    (g, r, k) of the row. -/
theorem hostRowSum_apply (X : FVec Ideal ⟨3, ![G, N, L]⟩ .f32)
    (hT : (⟨3, ![G, N, L]⟩ : Shape).ReducesTo [2] ⟨2, ![G, N]⟩) (hu : 0 < (⟨0, ![]⟩ : Shape).numel)
    (g : Fin G) (r : Fin N) :
    Host.reduceAdd X (constant (F := Ideal) ⟨0, ![]⟩ .f32 0x00000000#32) hT hu (ix2 g r) = ∑ k : Fin L, X (ix3 g r k) := by
  have h3 : (⟨3, ![G, N, L]⟩ : Shape).Reduces [2] ⟨2, ![G, N]⟩ := ⟨hT.1, Nat.two_pos, hT.2⟩
  rw [hostReduceAdd_apply, Ideal.hostReduceAdd_single hT h3, constant_apply, Ideal.ofBits_zero_f32, zero_add]
  refine Finset.sum_congr rfl fun k _ => ?_
  refine congrArg X (funext fun a => Fin.ext ?_)
  match a with
  | ⟨0, _⟩ => rfl
  | ⟨1, _⟩ => rfl
  | ⟨2, _⟩ => rfl

/-- The vector unit's sum over the lanes of an [N, L] matrix, from the zero pattern, is at r the sum of the entries
    (r, k) of the row. -/
theorem rowSum_apply (x : FVec Ideal ⟨2, ![N, L]⟩ .f32)
    (hR : (⟨2, ![N, L]⟩ : Shape).Reduces [1] ⟨1, ![N]⟩) (hφ : FKind.Formats .f32)
    (hadd : (0x00000000#32 : BitVec 32) = FKind.add.neutral .f32 hφ) (r : Fin N) :
    multiReduction .add [1] ⟨1, ![N]⟩ x 0x00000000#32 hR hφ hadd (ix1 r) = ∑ k : Fin L, x (ix2 r k) := by
  rw [Ideal.multiReduction_add_single x _ hR hφ hadd (ix1 r)]
  refine Finset.sum_congr rfl fun k _ => ?_
  refine congrArg x (funext fun a => Fin.ext ?_)
  match a with
  | ⟨0, _⟩ => rfl
  | ⟨1, _⟩ => rfl

/-- The host's exponential of a stack minus a per-row value copied along the last axis reads, at (g, r, l), the
    exponential of the entry minus the row's value. -/
theorem hostExpSub_apply (Y : FVec Ideal ⟨3, ![G, N, L]⟩ .f32) (M : FVec Ideal ⟨2, ![G, N]⟩ .f32)
    (hb1 : (⟨2, ![G, N]⟩ : Shape).BroadcastsInDim ⟨3, ![G, N, 1]⟩ (![0, 1] : Fin 2 → Fin (⟨3, ![G, N, 1]⟩ : Shape).rank))
    (hb2 : (⟨3, ![G, N, 1]⟩ : Shape).BroadcastsInDim ⟨3, ![G, N, L]⟩ (![0, 1, 2] : Fin 3 → Fin (⟨3, ![G, N, L]⟩ : Shape).rank))
    (g : Fin G) (r : Fin N) (l : Fin L) :
    Host.exp (subf Y (broadcastInDim ⟨3, ![G, N, L]⟩ ![0, 1, 2] hb2 (broadcastInDim ⟨3, ![G, N, 1]⟩ ![0, 1] hb1 M))) (ix3 g r l)
      = Ideal.exp (Y (ix3 g r l) - M (ix2 g r)) := by
  show Ideal.exp (Y (ix3 g r l) - broadcastInDim ⟨3, ![G, N, L]⟩ ![0, 1, 2] hb2 (broadcastInDim ⟨3, ![G, N, 1]⟩ ![0, 1] hb1 M) (ix3 g r l)) = _
  rw [bcastStack_apply]

/-- The vector unit's exponential of a matrix minus a per-row value copied along the lanes reads, at (r, l), the
    exponential of the entry minus the row's value. -/
theorem rowExpSub_apply (y : FVec Ideal ⟨2, ![N, L]⟩ .f32) (m : FVec Ideal ⟨1, ![N]⟩ .f32)
    (hC : (⟨1, ![N]⟩ : Shape).ShapeCasts ⟨2, ![N, 1]⟩) (hB : (⟨2, ![N, 1]⟩ : Shape).Broadcasts ⟨2, ![N, L]⟩)
    (r : Fin N) (l : Fin L) :
    exp (subf y (broadcastTo ⟨2, ![N, L]⟩ (shapeCast ⟨2, ![N, 1]⟩ m hC) hB)) (ix2 r l)
      = Ideal.exp (y (ix2 r l) - m (ix1 r)) := by
  show Ideal.exp (y (ix2 r l) - broadcastTo ⟨2, ![N, L]⟩ (shapeCast ⟨2, ![N, 1]⟩ m hC) hB (ix2 r l)) = _
  rw [bcastRow_apply]

/-- The host's row maximum, joined once more with the value it started from, is at (g, r) the vector unit's row maximum
    of member g at r: both are the fold of max over the row, and the starting value is below the fold. -/
theorem hostRowMax_eq_rowMax (Y : FVec Ideal ⟨3, ![G, N, L]⟩ .f32) (g : Fin G)
    (hT : (⟨3, ![G, N, L]⟩ : Shape).ReducesTo [2] ⟨2, ![G, N]⟩) (hu : 0 < (⟨0, ![]⟩ : Shape).numel)
    (hb0 : (⟨0, ![]⟩ : Shape).BroadcastsInDim ⟨2, ![G, N]⟩ (![] : Fin 0 → Fin (⟨2, ![G, N]⟩ : Shape).rank))
    (hR : (⟨2, ![N, L]⟩ : Shape).Reduces [1] ⟨1, ![N]⟩) (hφ : FKind.Formats .f32)
    (hmax : (0xFF800000#32 : BitVec 32) = FKind.maximumf.neutral .f32 hφ) (r : Fin N) :
    maximumf (broadcastInDim ⟨2, ![G, N]⟩ ![] hb0 (constant (F := Ideal) ⟨0, ![]⟩ .f32 0xFF800000#32))
        (Host.reduce FloatOps.maximumf Y (constant (F := Ideal) ⟨0, ![]⟩ .f32 0xFF800000#32) hT hu) (ix2 g r)
      = multiReduction .maximumf [1] ⟨1, ![N]⟩ (memberAt (d := ![N, L]) Y g) 0xFF800000#32 hR hφ hmax (ix1 r) := by
  rw [maximumf_apply, hostRowMax_apply, rowMax_apply, broadcastInDim_scalar_apply, constant_apply,
    max_eq_right ((Finset.le_fold_max _).2 (Or.inl le_rfl))]
  have e : (fun k : Fin L => memberAt (d := ![N, L]) Y g (ix2 r k)) = fun k => Y (ix3 g r k) :=
    funext fun k => by rw [memberAt_apply, cons_ix2]
  rw [e]

/-- MEMBER g OF THE STACK'S SOFTMAX IS THE MEMBER'S ROW SOFTMAX. -/
theorem memberAt_stackSoftmax (Y : FVec Ideal ⟨3, ![G, N, L]⟩ .f32) (g : Fin G)
    (hT : (⟨3, ![G, N, L]⟩ : Shape).ReducesTo [2] ⟨2, ![G, N]⟩) (hu : 0 < (⟨0, ![]⟩ : Shape).numel)
    (hb0 : (⟨0, ![]⟩ : Shape).BroadcastsInDim ⟨2, ![G, N]⟩ (![] : Fin 0 → Fin (⟨2, ![G, N]⟩ : Shape).rank))
    (hb1 : (⟨2, ![G, N]⟩ : Shape).BroadcastsInDim ⟨3, ![G, N, 1]⟩ (![0, 1] : Fin 2 → Fin (⟨3, ![G, N, 1]⟩ : Shape).rank))
    (hb2 : (⟨3, ![G, N, 1]⟩ : Shape).BroadcastsInDim ⟨3, ![G, N, L]⟩ (![0, 1, 2] : Fin 3 → Fin (⟨3, ![G, N, L]⟩ : Shape).rank))
    (hR : (⟨2, ![N, L]⟩ : Shape).Reduces [1] ⟨1, ![N]⟩) (hC : (⟨1, ![N]⟩ : Shape).ShapeCasts ⟨2, ![N, 1]⟩)
    (hB : (⟨2, ![N, 1]⟩ : Shape).Broadcasts ⟨2, ![N, L]⟩) (hφ : FKind.Formats .f32)
    (hmax : (0xFF800000#32 : BitVec 32) = FKind.maximumf.neutral .f32 hφ)
    (hadd : (0x00000000#32 : BitVec 32) = FKind.add.neutral .f32 hφ) :
    memberAt (d := ![N, L]) (stackSoftmax Y hT hu hb0 hb1 hb2) g
      = rowSoftmax (memberAt (d := ![N, L]) Y g) hR hC hB hφ hmax hadd := by
  funext i
  obtain ⟨r, l, rfl⟩ : ∃ (r : Fin N) (l : Fin L), i = ix2 r l := ⟨i 0, i 1, eq_ix2 i⟩
  rw [memberAt_apply, cons_ix2]
  unfold stackSoftmax rowSoftmax
  rw [hostDivf_apply, divf_apply, bcastStack_apply, bcastRow_apply, hostRowSum_apply, rowSum_apply]
  rw [hostExpSub_apply, rowExpSub_apply, hostRowMax_eq_rowMax Y g hT hu hb0 hR hφ hmax r, memberAt_apply, cons_ix2]
  refine congrArg (Ideal.div _) (Finset.sum_congr rfl fun k _ => ?_)
  rw [hostExpSub_apply, rowExpSub_apply, hostRowMax_eq_rowMax Y g hT hu hb0 hR hφ hmax r, memberAt_apply, cons_ix2]

end Cert.LibSoftmax

end
-- ==== Proof.LibStackDot.lean ====
/-
  Products over a stack of matrices, member by member.

  The host's product of two stacks [G, N, K] and [G, K, M], matrix by matrix (batch axis 0 on both sides, axis 2 of the
  left contracted with axis 1 of the right), and the host's product of a stack [G, N, K] by ONE matrix [K, M] (axis 2 of
  the left contracted with axis 0 of the right, the left's axes 0 and 1 kept) are, at member g, the block product of the
  member [N, K] by the right factor's member (or by the one matrix) into a zero accumulator: both are, at (n, j),
  Σ_κ a (n, κ) · b (κ, j). The operands on the two sides may be stored in different formats: at the ideal values a
  format is no part of the value, so the operands are related entry by entry.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibStackDot

open Idealize.ShloMosaic Idealize.ShloMosaic.ValueIdx Idealize.ShloMosaic.StackMember

variable {G N K M : Nat}

/-- A record of the stack-by-stack product (batch axis 0 on both sides, axis 2 of the left contracted with axis 1 of
    the right) is the record written out by its lists: the lists agree and the well-formedness is a proposition. -/
theorem stack_stack_eq (d : DotDims ⟨3, ![G, N, K]⟩ ⟨3, ![G, K, M]⟩ ⟨3, ![G, N, M]⟩)
    (hlc : d.lhsContracting = [2]) (hrc : d.rhsContracting = [1]) (hln : d.lhsNonContracting = [1])
    (hrn : d.rhsNonContracting = [2]) (hlb : d.lhsBatch = [0]) (hrb : d.rhsBatch = [0]) :
    ∃ w, d = ⟨[2], [1], [1], [2], [0], [0], w⟩ := by
  cases d
  simp only at hlc hrc hln hrn hlb hrb
  subst hlc hrc hln hrn hlb hrb
  exact ⟨_, rfl⟩

/-- A record of the stack-by-one-matrix product (axis 2 of the left contracted with axis 0 of the right, the left's
    axes 0 and 1 kept, no batch axis) is the record written out by its lists. -/
theorem stack_matrix_eq (d : DotDims ⟨3, ![G, N, K]⟩ ⟨2, ![K, M]⟩ ⟨3, ![G, N, M]⟩)
    (hlc : d.lhsContracting = [2]) (hrc : d.rhsContracting = [0]) (hln : d.lhsNonContracting = [0, 1])
    (hrn : d.rhsNonContracting = [1]) (hlb : d.lhsBatch = []) (hrb : d.rhsBatch = []) :
    ∃ w, d = ⟨[2], [0], [0, 1], [1], [], [], w⟩ := by
  cases d
  simp only at hlc hrc hln hrn hlb hrb
  subst hlc hrc hln hrn hlb hrb
  exact ⟨_, rfl⟩

/-- A record of the plain product of an N × K by a K × M matrix (axis 1 of the left contracted with axis 0 of the
    right, no batch axis) is the plain product's record. -/
theorem matrix_matrix_eq (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE STACK-BY-STACK PRODUCT AT MEMBER g, entry (n, j): Σ_κ A (g, n, κ) · B (g, κ, j). -/
theorem stack_stack_apply {φ₁ φ₂ : FTy}
    (d : DotDims ⟨3, ![G, N, K]⟩ ⟨3, ![G, K, M]⟩ ⟨3, ![G, N, M]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (A : FVec Ideal ⟨3, ![G, N, K]⟩ φ₁) (B : FVec Ideal ⟨3, ![G, K, M]⟩ φ₂)
    (g : Fin G) (n : Fin N) (j : Fin M) :
    Host.dotGeneral (F := Ideal) d prec A B (ix3 g n j) = ∑ κ : Fin K, A (ix3 g n κ) * B (ix3 g κ j) := by
  obtain ⟨w, rfl⟩ := stack_stack_eq d hlc hrc hln hrn hlb hrb
  exact dotGeneral_stack_apply w prec A B g n j

/-- THE STACK-BY-ONE-MATRIX PRODUCT AT MEMBER g, entry (n, j): Σ_κ Y (g, n, κ) · W (κ, j). -/
theorem stack_matrix_apply {φ₁ φ₂ : FTy}
    (d : DotDims ⟨3, ![G, N, K]⟩ ⟨2, ![K, M]⟩ ⟨3, ![G, N, M]⟩)
    (hlc : d.lhsContracting = [2]) (hrc : d.rhsContracting = [0]) (hln : d.lhsNonContracting = [0, 1])
    (hrn : d.rhsNonContracting = [1]) (hlb : d.lhsBatch = []) (hrb : d.rhsBatch = [])
    (prec : Option ContractPrecision) (Y : FVec Ideal ⟨3, ![G, N, K]⟩ φ₁) (W : FVec Ideal ⟨2, ![K, M]⟩ φ₂)
    (g : Fin G) (n : Fin N) (j : Fin M) :
    Host.dotGeneral (F := Ideal) d prec Y W (ix3 g n j) = ∑ κ : Fin K, Y (ix3 g n κ) * W (ix2 κ j) := by
  obtain ⟨w, rfl⟩ := stack_matrix_eq d hlc hrc hln hrn hlb hrb
  show FloatOps.dotGeneral _ prec _ Y W (ix3 g n j) = _
  rw [Ideal.dotGeneral_apply,
    ← Equiv.sum_comp (contrEquiv1 (⟨[2], [0], [0, 1], [1], [], [], w⟩ : DotDims _ _ _) K rfl rfl).symm]
  refine Finset.sum_congr rfl fun κ _ => ?_
  have cκ := contrEquiv1_symm_val
    (⟨[2], [0], [0, 1], [1], [], [], w⟩ : DotDims ⟨3, ![G, N, K]⟩ ⟨2, ![K, M]⟩ ⟨3, ![G, N, M]⟩) K rfl rfl κ
  have hl : (⟨[2], [0], [0, 1], [1], [], [], w⟩ : DotDims ⟨3, ![G, N, K]⟩ ⟨2, ![K, M]⟩ ⟨3, ![G, N, M]⟩).lhsIdx (ix3 g n j)
      ((contrEquiv1 _ K rfl rfl).symm κ) = ix3 g n κ := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cκ
  have hr : (⟨[2], [0], [0, 1], [1], [], [], w⟩ : DotDims ⟨3, ![G, N, K]⟩ ⟨2, ![K, M]⟩ ⟨3, ![G, N, M]⟩).rhsIdx (ix3 g n j)
      ((contrEquiv1 _ K rfl rfl).symm κ) = ix2 κ j := by
    funext ax; apply Fin.ext
    match ax with
    | ⟨0, _⟩ => simp [DotDims.rhsIdx]; exact cκ
    | ⟨1, _⟩ => simp [DotDims.rhsIdx]; rfl
  rw [hl, hr]

/-- THE BLOCK PRODUCT INTO A ZERO ACCUMULATOR AT (n, j): Σ_κ a (n, κ) · b (κ, j). -/
theorem matmul_zero_apply {φ₁ φ₂ : FTy}
    (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (a : FVec Ideal ⟨2, ![N, K]⟩ φ₁) (b : FVec Ideal ⟨2, ![K, M]⟩ φ₂)
    (n : Fin N) (j : Fin M) :
    matmul d prec a b (constant ⟨2, ![N, M]⟩ .f32 0x00000000#32) (ix2 n j) = ∑ κ : Fin K, a (ix2 n κ) * b (ix2 κ j) := by
  rw [matrix_matrix_eq d hlc hrc hln hrn hlb hrb]
  show FloatOps.matmul (DotDims.plain N K M) prec a b (constant ⟨2, ![N, M]⟩ .f32 0x00000000#32) (ix2 n j) = _
  rw [Ideal.matmul_constant_zero_apply]
  exact (Ideal.dotGeneral_apply (DotDims.plain N K M) none .single a b (ix2 n j)).symm.trans
    (dotGeneral_plain_apply none a b n j)

/-- MEMBER g OF THE STACK-BY-STACK PRODUCT IS THE BLOCK PRODUCT OF THE MEMBERS, whatever formats the block product's
    operands are stored in, as long as they hold the members' entries. -/
theorem memberAt_stack_stack {φ₁ φ₂ ψ₁ ψ₂ : FTy}
    (d3 : DotDims ⟨3, ![G, N, K]⟩ ⟨3, ![G, K, M]⟩ ⟨3, ![G, N, M]⟩)
    (hlc : d3.lhsContracting = [2]) (hrc : d3.rhsContracting = [1]) (hln : d3.lhsNonContracting = [1])
    (hrn : d3.rhsNonContracting = [2]) (hlb : d3.lhsBatch = [0]) (hrb : d3.rhsBatch = [0])
    (d2 : DotDims ⟨2, ![N, K]⟩ ⟨2, ![K, M]⟩ ⟨2, ![N, M]⟩)
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (prec prec' : Option ContractPrecision)
    (A : FVec Ideal ⟨3, ![G, N, K]⟩ φ₁) (B : FVec Ideal ⟨3, ![G, K, M]⟩ φ₂)
    (a : FVec Ideal ⟨2, ![N, K]⟩ ψ₁) (b : FVec Ideal ⟨2, ![K, M]⟩ ψ₂) (g : Fin G)
    (ha : ∀ n κ, (a (ix2 n κ) : EReal) = A (ix3 g n κ)) (hb : ∀ κ j, (b (ix2 κ j) : EReal) = B (ix3 g κ j)) :
    memberAt (d := ![N, M]) (Host.dotGeneral (F := Ideal) d3 prec A B) g
      = matmul d2 prec' a b (constant ⟨2, ![N, M]⟩ .f32 0x00000000#32) := by
  funext i
  obtain ⟨n, j, rfl⟩ : ∃ (n : Fin N) (j : Fin M), i = ix2 n j := ⟨i 0, i 1, eq_ix2 i⟩
  rw [memberAt_apply, cons_ix2, stack_stack_apply d3 hlc hrc hln hrn hlb hrb,
    matmul_zero_apply d2 hlc' hrc' hln' hrn' hlb' hrb']
  exact Finset.sum_congr rfl fun κ _ => (congrArg₂ (· * ·) (ha n κ) (hb κ j)).symm

/-- MEMBER g OF THE STACK-BY-ONE-MATRIX PRODUCT IS THE BLOCK PRODUCT OF THE MEMBER BY THE MATRIX. -/
theorem memberAt_stack_matrix {φ₁ φ₂ ψ₁ ψ₂ : FTy}
    (d3 : DotDims ⟨3, ![G, N, K]⟩ ⟨2, ![K, M]⟩ ⟨3, ![G, N, M]⟩)
    (hlc : d3.lhsContracting = [2]) (hrc : d3.rhsContracting = [0]) (hln : d3.lhsNonContracting = [0, 1])
    (hrn : d3.rhsNonContracting = [1]) (hlb : d3.lhsBatch = []) (hrb : d3.rhsBatch = [])
    (d2 : DotDims ⟨2, ![N, K]⟩ ⟨2, ![K, M]⟩ ⟨2, ![N, M]⟩)
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (prec prec' : Option ContractPrecision)
    (Y : FVec Ideal ⟨3, ![G, N, K]⟩ φ₁) (W : FVec Ideal ⟨2, ![K, M]⟩ φ₂)
    (y : FVec Ideal ⟨2, ![N, K]⟩ ψ₁) (w : FVec Ideal ⟨2, ![K, M]⟩ ψ₂) (g : Fin G)
    (hy : ∀ n κ, (y (ix2 n κ) : EReal) = Y (ix3 g n κ)) (hw : ∀ κ j, (w (ix2 κ j) : EReal) = W (ix2 κ j)) :
    memberAt (d := ![N, M]) (Host.dotGeneral (F := Ideal) d3 prec Y W) g
      = matmul d2 prec' y w (constant ⟨2, ![N, M]⟩ .f32 0x00000000#32) := by
  funext i
  obtain ⟨n, j, rfl⟩ : ∃ (n : Fin N) (j : Fin M), i = ix2 n j := ⟨i 0, i 1, eq_ix2 i⟩
  rw [memberAt_apply, cons_ix2, stack_matrix_apply d3 hlc hrc hln hrn hlb hrb,
    matmul_zero_apply d2 hlc' hrc' hln' hrn' hlb' hrb']
  exact Finset.sum_congr rfl fun κ _ => (congrArg₂ (· * ·) (hy n κ) (hw κ j)).symm

end Cert.LibStackDot

end
-- ==== Proof.Masks.lean ====
/-
  The constant masks, the bias and the weights of one batch member.

  The reference broadcasts the tag mask tm [1025, 256], the additive mask (1 - tm) · (-1e10), and the bias [256] over the
  batch; member g of each broadcast is the kernel's own value: the mask block itself, (1 - tm) · (-1e10) computed on the
  block, the bias copied down the rows. The weights [1, 256, 256] reshaped to [256, 256] are the kernel's squeezed and
  format-changed block (a format change is the identity on the extended reals).
-/
import proofs.«420288_j73366631350576_2_alg».proof.Proof.Gen.ReferenceIdeal.Read
import proofs.«420288_j73366631350576_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace Cert.Bridge

open Idealize.ShloMosaic Idealize.ShloMosaic.ValueIdx Idealize.ShloMosaic.StackMember
open Cert.ReferenceIdeal.Read

variable (tm : Vec Ideal Cert.KernelIdeal.S1025x256 .f32)

/-- Member g of the broadcast additive mask is (1 - tm) · c computed on the mask block. -/
theorem negmask_member (htm : ∀ (r : Fin 1025) (l : Fin 256), (tm (ix2 r l) : EReal) = val_main_v62 (F := Ideal) (ix2 r l))
    (g : Fin 32) (r : Fin 1025) (l : Fin 256) :
    (val_main_v68 (F := Ideal) (ix3 g r l) : EReal) = Cert.KernelIdeal.Gen.k0_pay5 (F := Ideal) tm (ix2 r l) := by
  rw [val_main_v68_apply, val_main_v67_apply, val_main_v65_apply, val_main_v64_apply, val_main_v66_apply,
    val_main_v63_apply, val_main_cst_17_apply, val_main_cst_18_apply]
  have e : idx_main_v63 (idx_main_v68 (ix3 g r l)) = ix2 r l :=
    funext fun a => Fin.ext (by match a with | ⟨0, _⟩ => rfl | ⟨1, _⟩ => rfl)
  rw [e, ← htm r l]
  unfold Cert.KernelIdeal.Gen.k0_pay5 Cert.KernelIdeal.Gen.k0_pay4
  rw [shapeCast_self]
  rfl

/-- The additive mask is built three times by the same operations. -/
theorem v97_eq : val_main_v97 (F := Ideal) = val_main_v68 (F := Ideal) := by
  rfl
theorem v122_eq : val_main_v122 (F := Ideal) = val_main_v68 (F := Ideal) := by
  rfl

/-- Member g of the broadcast tag mask is the mask block. -/
theorem tagmask_member (htm : ∀ (r : Fin 1025) (l : Fin 256), (tm (ix2 r l) : EReal) = val_main_v62 (F := Ideal) (ix2 r l))
    (g : Fin 32) (r : Fin 1025) (l : Fin 256) :
    (val_main_v85 (F := Ideal) (ix3 g r l) : EReal) = Cert.KernelIdeal.Gen.k0_pay4 (F := Ideal) tm (ix2 r l) := by
  rw [val_main_v85_apply, val_main_v63_apply]
  have e : idx_main_v63 (idx_main_v85 (ix3 g r l)) = ix2 r l :=
    funext fun a => Fin.ext (by match a with | ⟨0, _⟩ => rfl | ⟨1, _⟩ => rfl)
  rw [e, ← htm r l]
  unfold Cert.KernelIdeal.Gen.k0_pay4
  rw [shapeCast_self]

/-- The tag mask is broadcast twice by the same operations. -/
theorem v110_eq : val_main_v110 (F := Ideal) = val_main_v85 (F := Ideal) := by
  rfl

/-- Member g of the broadcast bias is the bias copied down the rows. -/
theorem bias_member (x4 : Vec Ideal Cert.KernelIdeal.S256 .f32) (g : Fin 32) (r : Fin 1025) (k : Fin 256) :
    (val_main_v90 (F := Ideal) x4 (ix3 g r k) : EReal)
      = broadcastTo Cert.KernelIdeal.S1025x256 (shapeCast Cert.KernelIdeal.S1x256 x4 Cert.KernelIdeal.Gen.shapeCasts_S256_S1x256)
          Cert.KernelIdeal.Gen.broadcasts_S1x256_S1025x256 (ix2 r k) := by
  rw [val_main_v90_apply, val_main_v89_apply]
  have e : idx_main_v89 (idx_main_v90 (ix3 g r k)) = ix1 k :=
    funext fun a => Fin.ext (by match a with | ⟨0, _⟩ => rfl)
  rw [e]
  refine Eq.symm ((broadcastTo_apply _ Cert.KernelIdeal.Gen.broadcasts_S1x256_S1025x256 (ix2 r k) (ix2 (0 : Fin 1) k) ?_).trans ?_)
  · intro a
    match a with
    | ⟨0, _⟩ => rfl
    | ⟨1, _⟩ => rfl
  · refine (shapeCast_addUnit_apply _ x4 Cert.KernelIdeal.Gen.shapeCasts_S256_S1x256 (ix2 (0 : Fin 1) k)).trans ?_
    exact congrArg x4 (funext fun a => Fin.ext (by match a with | ⟨0, _⟩ => rfl))

/-- The bias is broadcast twice by the same operations. -/
theorem v115_eq (x4 : (⟨Cert.ReferenceIdeal.S256, .f32⟩ : BufTy).Contents (Elt Ideal)) :
    val_main_v115 (F := Ideal) x4 = val_main_v90 (F := Ideal) x4 := by
  rfl

/-- The kernel's weight block, squeezed and format-changed, is the reference's reshaped weights. -/
theorem weights_member (x3 : Vec Ideal Cert.KernelIdeal.S1x256x256 .f32) (k m : Fin 256) :
    (Cert.KernelIdeal.Gen.k0_pay12 (F := Ideal) x3 (ix2 k m) : EReal) = val_main_v84 (F := Ideal) x3 (ix2 k m) := by
  unfold Cert.KernelIdeal.Gen.k0_pay12 val_main_v84
  rfl

end Cert.Bridge

end
-- ==== Proof.Adjacency.lean ====
/-
  The adjacency matrix of one batch member.

  The reference builds, for the whole batch, A[g, n, k] = (col_ok[g, k] · (1 - eye[n, k])) · dist[n, k], where
  col_ok[g, k] is 1 when k < length[g] (as signed words) or k = 1024, else 0, and eye is the identity matrix; the kernel
  builds, for its member, mask[n, k] · dist[n, k] with mask the 0/1 value of (k < length or k = 1024) and n ≠ k. On the
  extended reals a product of 0/1 indicators is the indicator of the conjunction and 1 - [n = k] is [n ≠ k], so the two
  agree entry by entry, whatever dist is.
-/
import proofs.«420288_j73366631350576_2_alg».proof.Proof.Gen.ReferenceIdeal.Read
import proofs.«420288_j73366631350576_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost
import Idealize.ShloMosaic.Lib.KernelVsHost

noncomputable section

open scoped BigOperators

namespace Cert.Bridge

open Idealize.ShloMosaic Idealize.ShloMosaic.ValueIdx Idealize.ShloMosaic.StackMember
open Cert.ReferenceIdeal.Read

/-- The kernel's adjacency matrix for one member: the 0/1 mask of (column < length or column = 1024) and row ≠ column,
    times the distance kernel. -/
def adjK (len : Elt Ideal .i32) (v29 : FVec Ideal Cert.KernelIdeal.S1025x1025 .bf16) : FVec Ideal Cert.KernelIdeal.S1025x1025 .bf16 :=
  mulf (truncf .bf16 (sitofp .f32 (extui 32
      (andi
        (ori (cmpi .slt (iota .tc Cert.KernelIdeal.S1025x1025 32 [1] Cert.KernelIdeal.Gen.iota_S1025x1025_d1_w32) (broadcast Cert.KernelIdeal.S1025x1025 len))
             (cmpi .eq (iota .tc Cert.KernelIdeal.S1025x1025 32 [1] Cert.KernelIdeal.Gen.iota_S1025x1025_d1_w32) (broadcast Cert.KernelIdeal.S1025x1025 (1024#32 : BitVec 32))))
        (cmpi .ne (iota .tc Cert.KernelIdeal.S1025x1025 32 [0] Cert.KernelIdeal.Gen.iota_S1025x1025_d0_w32)
                  (iota .tc Cert.KernelIdeal.S1025x1025 32 [1] Cert.KernelIdeal.Gen.iota_S1025x1025_d1_w32)))
      Cert.KernelIdeal.Gen.natLt_1_32)) Cert.KernelIdeal.Gen.bitsLt_bf16_f32) v29

/-- On words of one bit and extended reals: the 0/1 value of a, times one minus the 0/1 value of (x = y), is the 0/1 value of the
    conjunction of a and (x ≠ y) widened to 32 bits and read signed. -/
theorem mask_word (a : BitVec 1) (x y : BitVec 32) :
    (((a.toNat : ℝ) : EReal) * ((1 : EReal) - (((IntOp.cmpi .eq x y).toNat : ℝ) : EReal)))
      = ((((IntOp.andi a (IntOp.cmpi .ne x y)).setWidth 32).toInt : ℝ) : EReal) := by
  rw [toInt_setWidth_bit]
  have he : IntOp.cmpi .eq x y = if x = y then 1#1 else 0#1 := by
    by_cases h : x = y
    · simp [IntOp.cmpi, h]
    · have hb : (x == y) = false := beq_eq_false_iff_ne.mpr h
      simp [IntOp.cmpi, h, hb]
  have hn : IntOp.cmpi .ne x y = if x = y then 0#1 else 1#1 := by
    by_cases h : x = y
    · simp [IntOp.cmpi, h]
    · have hb : (x != y) = true := bne_iff_ne.mpr h
      simp [IntOp.cmpi, h, hb]
  have h11 : (1 : EReal) - 1 = 0 := EReal.sub_self (by decide) (by decide)
  rw [he, hn]
  by_cases h : x = y
  · rw [if_pos h, if_pos h]
    rcases BitVec.eq_zero_or_eq_one a with rfl | rfl <;> simp [IntOp.andi, h11]
  · rw [if_neg h, if_neg h]
    rcases BitVec.eq_zero_or_eq_one a with rfl | rfl <;> simp [IntOp.andi]

/-- ENTRY (n, k) OF MEMBER g OF THE REFERENCE'S ADJACENCY STACK IS THE KERNEL'S ENTRY, for any array v29 holding the
    reference's distance kernel entry by entry. -/
theorem adj_member (x2 : (⟨Cert.ReferenceIdeal.S32, .i32⟩ : BufTy).Contents (Elt Ideal)) (g : Fin 32) (n k : Fin 1025)
    (v29 : FVec Ideal Cert.KernelIdeal.S1025x1025 .bf16)
    (hd : ∀ n k : Fin 1025, (v29 (ix2 n k) : EReal) = val_main_v27 (F := Ideal) (ix2 n k)) :
    (val_main_v83 (F := Ideal) x2 (ix3 g n k) : EReal) = adjK (x2 (ix1 g)) v29 (ix2 n k) := by
  simp only [val_main_v83_apply, val_main_v51_apply, val_main_v49_apply, val_main_v45_apply, val_main_v44_apply,
    val_main_v37_apply, val_main_v32_apply, val_main_v30_apply, val_main_v28_apply, val_main_v6_apply, val_main_v31_apply,
    val_main_v29_apply, val_main_v36_apply, val_main_v35_apply, val_main_v33_apply, val_main_v34_apply, val_main_c_7_apply,
    val_main_v50_apply, val_main_v48_apply, val_main_v47_apply, val_main_v46_apply, val_main_cst_9_apply, val_main_v43_apply,
    val_main_v42_apply, val_main_v41_apply, val_main_v38_apply, val_main_v40_apply, val_main_c_8_apply, val_main_v39_apply,
    val_main_v82_apply, val_main_v81_apply]
  have e1 : idx_main_v29 (idx_main_v31 (idx_main_v45 (idx_main_v49 (ix3 g n k)))) = ix1 g :=
    funext fun a => Fin.ext (by match a with | ⟨0, _⟩ => rfl)
  have e2 : idx_main_v81 (idx_main_v82 (ix3 g n k)) = ix2 n k :=
    funext fun a => Fin.ext (by match a with | ⟨0, _⟩ => rfl | ⟨1, _⟩ => rfl)
  rw [e1, e2, ← hd]
  unfold adjK
  simp only [mulf_apply, truncf_apply, sitofp_apply, extui_apply, andi, ori, cmpi, broadcast]
  rw [iota_single_apply, iota_single_apply]
  show ((((IntOp.ori (IntOp.cmpi .slt (BitVec.ofNat 32 k.val) (x2 (ix1 g)))
              (IntOp.cmpi .eq (BitVec.ofNat 32 k.val) 1024#32)).toNat : ℝ) : EReal)
        * (Ideal.ofBits .f32 0x3F800000#32
            - (((IntOp.cmpi .eq (BitVec.ofNat 32 n.val + 0#32) (BitVec.ofNat 32 k.val)).toNat : ℝ) : EReal)))
        * (v29 (ix2 n k) : EReal)
      = ((((IntOp.andi (IntOp.ori (IntOp.cmpi .slt (BitVec.ofNat 32 k.val) (x2 (ix1 g)))
              (IntOp.cmpi .eq (BitVec.ofNat 32 k.val) 1024#32))
            (IntOp.cmpi .ne (BitVec.ofNat 32 n.val) (BitVec.ofNat 32 k.val))).setWidth 32).toInt : ℝ) : EReal)
        * (v29 (ix2 n k) : EReal)
  rw [Ideal.ofBits_one_f32, BitVec.add_zero, mask_word]

end Cert.Bridge

end
-- ==== Proof.Bridge.lean ====
/-
  One batch member of the reference is the kernel's body value.

  Both programs compute, for each batch member, two rounds of the same update on a [1025, 256] array:
      step(dis) = ((A · (dis ∘ tm)) · W + bias) + base + neg,      dis₀ = softmax(base),  dis₁ = softmax(step(dis₀)),
  and return step(dis₁); softmax is along the rows, A is the member's masked distance kernel, tm the tag mask, neg the
  additive mask (1 - tm) · c and base the joint logits plus neg. The reference does it for the whole batch at once
  (products over a stack, broadcasts of the constant arrays), the kernel for one member in one grid point (block
  products into a zero accumulator, with format changes that are the identity on the extended reals). Member g of each
  of the reference's stages is the kernel's stage, by the member lemmas for the softmax, the two products, the adjacency
  matrix and the constant arrays.
-/
import proofs.«420288_j73366631350576_2_alg».proof.Proof.Gen.ReferenceIdeal.Read
import proofs.«420288_j73366631350576_2_alg».proof.Proof.Gen.KernelIdeal.Skeleton
import proofs.«420288_j73366631350576_2_alg».proof.Proof.LibSoftmax
import proofs.«420288_j73366631350576_2_alg».proof.Proof.LibStackDot
import proofs.«420288_j73366631350576_2_alg».proof.Proof.Masks
import proofs.«420288_j73366631350576_2_alg».proof.Proof.Adjacency
import Idealize.ShloMosaic.PureOps.Ideal.Laws
import Idealize.ShloMosaic.Lib.ValueIdx
import Idealize.ShloMosaic.Lib.Pipeline.Value
import Idealize.ShloMosaic.Lib.StackMember

noncomputable section

open scoped BigOperators

namespace Cert.Bridge

open Idealize.ShloMosaic Idealize.ShloMosaic.ValueIdx Idealize.ShloMosaic.StackMember
open Cert.ReferenceIdeal.Read

/-! ## The kernel's side: the body value as two rounds of one step -/

/-- The row softmax of a member, as the vector unit computes it. -/
def softK (y : FVec Ideal Cert.KernelIdeal.S1025x256 .f32) : FVec Ideal Cert.KernelIdeal.S1025x256 .f32 :=
  Cert.LibSoftmax.rowSoftmax (N := 1025) (L := 256) y Cert.KernelIdeal.Gen.reduces_S1025x256_S1025
    Cert.KernelIdeal.Gen.shapeCasts_S1025_S1025x1 Cert.KernelIdeal.Gen.broadcasts_S1025x1_S1025x256 (.inl rfl) rfl rfl

/-- One update on a member: ((A · (dis ∘ tm)) · W + bias) + base + neg. -/
def stepK (A : FVec Ideal Cert.KernelIdeal.S1025x1025 .bf16) (tm neg base : FVec Ideal Cert.KernelIdeal.S1025x256 .f32)
    (w46 : FVec Ideal Cert.KernelIdeal.S256x256 .bf16) (b : Vec Ideal Cert.KernelIdeal.S256 .f32)
    (dis : FVec Ideal Cert.KernelIdeal.S1025x256 .f32) : FVec Ideal Cert.KernelIdeal.S1025x256 .f32 :=
  addf (addf (addf
    (matmul Cert.KernelIdeal.dot_S1025x256_S256x256_S1025x256_1_0_0_1_n_n none
      (truncf .bf16 (matmul Cert.KernelIdeal.dot_S1025x1025_S1025x256_S1025x256_1_0_0_1_n_n none A
        (truncf .bf16 (mulf dis tm) Cert.KernelIdeal.Gen.bitsLt_bf16_f32)
        (constant Cert.KernelIdeal.S1025x256 .f32 0x00000000#32)) Cert.KernelIdeal.Gen.bitsLt_bf16_f32)
      w46 (constant Cert.KernelIdeal.S1025x256 .f32 0x00000000#32))
    (broadcastTo Cert.KernelIdeal.S1025x256 (shapeCast Cert.KernelIdeal.S1x256 b Cert.KernelIdeal.Gen.shapeCasts_S256_S1x256)
      Cert.KernelIdeal.Gen.broadcasts_S1x256_S1025x256)) base) neg

/-- The [1025, 256] value both output blocks are cut from, as a function of the member's length word, the joint
    logits, the tag mask, the distance kernel, the weights and the bias. -/
def bodyVal (len : Elt Ideal .i32) (X tm : Vec Ideal Cert.KernelIdeal.S1025x256 .f32)
    (v28 : Vec Ideal Cert.KernelIdeal.S1025x1025 .bf16) (w : Vec Ideal Cert.KernelIdeal.S1x256x256 .f32)
    (b : Vec Ideal Cert.KernelIdeal.S256 .f32) : FVec Ideal Cert.KernelIdeal.S1025x256 .f32 :=
  Cert.KernelIdeal.Gen.k0_pay1 (Cert.KernelIdeal.Gen.k0_pay5 tm) (Cert.KernelIdeal.Gen.k0_pay10 tm X) b
    (Cert.KernelIdeal.Gen.k0_pay12 w)
    (Cert.KernelIdeal.Gen.k0_pay13 len (Cert.KernelIdeal.Gen.k0_pay4 tm) (Cert.KernelIdeal.Gen.k0_pay5 tm)
      (Cert.KernelIdeal.Gen.k0_pay10 tm X) (Cert.KernelIdeal.Gen.k0_pay11 v28) w b)

/-- The body value is two rounds of the step, the second on the softmax of the first. -/
theorem bodyVal_eq (len : Elt Ideal .i32) (X tm : Vec Ideal Cert.KernelIdeal.S1025x256 .f32)
    (v28 : Vec Ideal Cert.KernelIdeal.S1025x1025 .bf16) (w : Vec Ideal Cert.KernelIdeal.S1x256x256 .f32)
    (b : Vec Ideal Cert.KernelIdeal.S256 .f32) :
    bodyVal len X tm v28 w b
      = stepK (adjK len (Cert.KernelIdeal.Gen.k0_pay11 v28)) (Cert.KernelIdeal.Gen.k0_pay4 tm) (Cert.KernelIdeal.Gen.k0_pay5 tm)
          (Cert.KernelIdeal.Gen.k0_pay10 tm X) (Cert.KernelIdeal.Gen.k0_pay12 w) b
          (softK (stepK (adjK len (Cert.KernelIdeal.Gen.k0_pay11 v28)) (Cert.KernelIdeal.Gen.k0_pay4 tm)
            (Cert.KernelIdeal.Gen.k0_pay5 tm) (Cert.KernelIdeal.Gen.k0_pay10 tm X) (Cert.KernelIdeal.Gen.k0_pay12 w) b
            (softK (Cert.KernelIdeal.Gen.k0_pay10 tm X)))) := rfl

/-! ## The reference's side: the same two rounds over the whole batch -/

/-- The softmax along the last axis of the batch, as the host computes it. -/
def softH (Y : FVec Ideal Cert.ReferenceIdeal.S32x1025x256 .f32) : FVec Ideal Cert.ReferenceIdeal.S32x1025x256 .f32 :=
  Cert.LibSoftmax.stackSoftmax (G := 32) (N := 1025) (L := 256) Y Cert.ReferenceIdeal.Gen.reducesTo_S32x1025x256_S32x1025_d2
    Cert.ReferenceIdeal.Gen.h_S_ Cert.ReferenceIdeal.Gen.bcast_S_S32x1025 Cert.ReferenceIdeal.Gen.bcast_S32x1025_S32x1025x1_0_1
    Cert.ReferenceIdeal.Gen.bcast_S32x1025x1_S32x1025x256_0_1_2

/-- One update on the whole batch. -/
def stepH (A3 : FVec Ideal Cert.ReferenceIdeal.S32x1025x1025 .f32) (W : FVec Ideal Cert.ReferenceIdeal.S256x256 .f32)
    (bias3 base3 neg3 tm3 dis3 : FVec Ideal Cert.ReferenceIdeal.S32x1025x256 .f32) :
    FVec Ideal Cert.ReferenceIdeal.S32x1025x256 .f32 :=
  addf (addf (addf
    (Host.dotGeneral Cert.ReferenceIdeal.dot_S32x1025x256_S256x256_S32x1025x256_2_0_01_1_n_n none
      (Host.dotGeneral Cert.ReferenceIdeal.dot_S32x1025x1025_S32x1025x256_S32x1025x256_2_1_1_2_0_0 none A3 (mulf dis3 tm3)) W)
    bias3) base3) neg3

variable (x0 : (⟨Cert.ReferenceIdeal.S32x1024x192, .f32⟩ : BufTy).Contents (Elt Ideal))
  (x1 : (⟨Cert.ReferenceIdeal.S32x64, .f32⟩ : BufTy).Contents (Elt Ideal))
  (x2 : (⟨Cert.ReferenceIdeal.S32, .i32⟩ : BufTy).Contents (Elt Ideal))
  (x3 : (⟨Cert.ReferenceIdeal.S1x256x256, .f32⟩ : BufTy).Contents (Elt Ideal))
  (x4 : (⟨Cert.ReferenceIdeal.S256, .f32⟩ : BufTy).Contents (Elt Ideal))

theorem v80_eq : val_main_v80 (F := Ideal) x0 x1 = softH (val_main_v69 (F := Ideal) x0 x1) := rfl

theorem v98_eq : val_main_v98 (F := Ideal) x0 x1 x2 x3 x4
    = stepH (val_main_v83 (F := Ideal) x2) (val_main_v84 (F := Ideal) x3) (val_main_v90 (F := Ideal) x4)
        (val_main_v69 (F := Ideal) x0 x1) (val_main_v97 (F := Ideal)) (val_main_v85 (F := Ideal))
        (val_main_v80 (F := Ideal) x0 x1) := rfl

theorem v109_eq : val_main_v109 (F := Ideal) x0 x1 x2 x3 x4 = softH (val_main_v98 (F := Ideal) x0 x1 x2 x3 x4) := rfl

theorem v123_eq : val_main_v123 (F := Ideal) x0 x1 x2 x3 x4
    = stepH (val_main_v83 (F := Ideal) x2) (val_main_v84 (F := Ideal) x3) (val_main_v115 (F := Ideal) x4)
        (val_main_v69 (F := Ideal) x0 x1) (val_main_v122 (F := Ideal)) (val_main_v110 (F := Ideal))
        (val_main_v109 (F := Ideal) x0 x1 x2 x3 x4) := rfl

/-! ## Member g of the batch is the kernel's member -/

/-- A batch array whose member g holds, entry by entry, a [1025, 256] array y has y as member g. -/
theorem memberAt_eq_of_forall {φ ψ : FTy} (Y : FVec Ideal Cert.ReferenceIdeal.S32x1025x256 φ)
    (y : FVec Ideal Cert.KernelIdeal.S1025x256 ψ) (g : Fin 32)
    (h : ∀ (r : Fin 1025) (l : Fin 256), (Y (ix3 g r l) : EReal) = y (ix2 r l)) :
    (memberAt (d := ![1025, 256]) Y g : (⟨2, ![1025, 256]⟩ : Shape).Idx → EReal) = y := by
  funext i
  obtain ⟨r, l, rfl⟩ : ∃ (r : Fin 1025) (l : Fin 256), i = ix2 r l := ⟨i 0, i 1, eq_ix2 i⟩
  rw [memberAt_apply, cons_ix2]
  exact h r l

/-- MEMBER g OF ONE UPDATE OVER THE BATCH IS THE UPDATE ON THE MEMBER, when member g of each operand is the
    member's operand. -/
theorem step_member (g : Fin 32)
    (A3 : FVec Ideal Cert.ReferenceIdeal.S32x1025x1025 .f32) (A : FVec Ideal Cert.KernelIdeal.S1025x1025 .bf16)
    (hA : ∀ n k : Fin 1025, (A (ix2 n k) : EReal) = A3 (ix3 g n k))
    (W : FVec Ideal Cert.ReferenceIdeal.S256x256 .f32) (w46 : FVec Ideal Cert.KernelIdeal.S256x256 .bf16)
    (hW : ∀ k m : Fin 256, (w46 (ix2 k m) : EReal) = W (ix2 k m))
    (bias3 base3 neg3 tm3 dis3 : FVec Ideal Cert.ReferenceIdeal.S32x1025x256 .f32)
    (b : Vec Ideal Cert.KernelIdeal.S256 .f32) (base neg tm dis : FVec Ideal Cert.KernelIdeal.S1025x256 .f32)
    (hb : ∀ (r : Fin 1025) (k : Fin 256), (bias3 (ix3 g r k) : EReal)
      = broadcastTo Cert.KernelIdeal.S1025x256 (shapeCast Cert.KernelIdeal.S1x256 b Cert.KernelIdeal.Gen.shapeCasts_S256_S1x256)
          Cert.KernelIdeal.Gen.broadcasts_S1x256_S1025x256 (ix2 r k))
    (hbase : ∀ (r : Fin 1025) (l : Fin 256), (base3 (ix3 g r l) : EReal) = base (ix2 r l))
    (hneg : ∀ (r : Fin 1025) (l : Fin 256), (neg3 (ix3 g r l) : EReal) = neg (ix2 r l))
    (htm : ∀ (r : Fin 1025) (l : Fin 256), (tm3 (ix3 g r l) : EReal) = tm (ix2 r l))
    (hdis : ∀ (r : Fin 1025) (l : Fin 256), (dis3 (ix3 g r l) : EReal) = dis (ix2 r l))
    (r : Fin 1025) (k : Fin 256) :
    (stepH A3 W bias3 base3 neg3 tm3 dis3 (ix3 g r k) : EReal) = stepK A tm neg base w46 b dis (ix2 r k) := by
  have h1 := Cert.LibStackDot.memberAt_stack_stack (G := 32) (N := 1025) (K := 1025) (M := 256)
    Cert.ReferenceIdeal.dot_S32x1025x1025_S32x1025x256_S32x1025x256_2_1_1_2_0_0 rfl rfl rfl rfl rfl rfl
    Cert.KernelIdeal.dot_S1025x1025_S1025x256_S1025x256_1_0_0_1_n_n rfl rfl rfl rfl rfl rfl none none
    A3 (mulf dis3 tm3) A (truncf .bf16 (mulf dis tm) Cert.KernelIdeal.Gen.bitsLt_bf16_f32) g hA
    (fun κ j => by rw [truncf_apply, mulf_apply, mulf_apply, hdis, htm])
  have h2 := Cert.LibStackDot.memberAt_stack_matrix (G := 32) (N := 1025) (K := 256) (M := 256)
    Cert.ReferenceIdeal.dot_S32x1025x256_S256x256_S32x1025x256_2_0_01_1_n_n rfl rfl rfl rfl rfl rfl
    Cert.KernelIdeal.dot_S1025x256_S256x256_S1025x256_1_0_0_1_n_n rfl rfl rfl rfl rfl rfl none none
    (Host.dotGeneral Cert.ReferenceIdeal.dot_S32x1025x1025_S32x1025x256_S32x1025x256_2_1_1_2_0_0 none A3 (mulf dis3 tm3)) W
    (truncf .bf16 (matmul Cert.KernelIdeal.dot_S1025x1025_S1025x256_S1025x256_1_0_0_1_n_n none A
      (truncf .bf16 (mulf dis tm) Cert.KernelIdeal.Gen.bitsLt_bf16_f32)
      (constant Cert.KernelIdeal.S1025x256 .f32 0x00000000#32)) Cert.KernelIdeal.Gen.bitsLt_bf16_f32) w46 g
    (fun n κ => by
      rw [truncf_apply, ← h1, memberAt_apply, cons_ix2])
    hW
  have h3 := congrFun h2 (ix2 r k)
  rw [memberAt_apply, cons_ix2] at h3
  unfold stepH stepK
  rw [addf_apply, addf_apply, addf_apply, addf_apply, addf_apply, addf_apply, h3, hb, hbase, hneg]

/-- MEMBER g OF THE REFERENCE'S LAST STAGE IS THE KERNEL'S BODY VALUE, when the kernel's operands hold member g of the
    reference's: the length word, the joint logits, the tag mask and the distance kernel entry by entry; the weights and
    the bias are the arguments themselves. -/
theorem bridge (g : Fin 32) (len : Elt Ideal .i32) (hlen : len = x2 (ix1 g))
    (X tm : Vec Ideal Cert.KernelIdeal.S1025x256 .f32) (v28 : Vec Ideal Cert.KernelIdeal.S1025x1025 .bf16)
    (hX : ∀ (r : Fin 1025) (l : Fin 256), (X (ix2 r l) : EReal) = val_main_v5 (F := Ideal) x0 x1 (ix3 g r l))
    (htm : ∀ (r : Fin 1025) (l : Fin 256), (tm (ix2 r l) : EReal) = val_main_v62 (F := Ideal) (ix2 r l))
    (hd : ∀ n k : Fin 1025, (v28 (ix2 n k) : EReal) = val_main_v27 (F := Ideal) (ix2 n k))
    (r : Fin 1025) (k : Fin 256) :
    (val_main_v123 (F := Ideal) x0 x1 x2 x3 x4 (ix3 g r k) : EReal) = bodyVal len X tm v28 x3 x4 (ix2 r k) := by
  subst hlen
  rw [bodyVal_eq, v123_eq]
  -- the member's operands
  have hA : ∀ n k : Fin 1025, (adjK (x2 (ix1 g)) (Cert.KernelIdeal.Gen.k0_pay11 v28) (ix2 n k) : EReal)
      = val_main_v83 (F := Ideal) x2 (ix3 g n k) := fun n k =>
    (adj_member x2 g n k (Cert.KernelIdeal.Gen.k0_pay11 v28) (fun n k => by
      unfold Cert.KernelIdeal.Gen.k0_pay11; rw [shapeCast_self]; exact hd n k)).symm
  have hW : ∀ k m : Fin 256, (Cert.KernelIdeal.Gen.k0_pay12 (F := Ideal) x3 (ix2 k m) : EReal)
      = val_main_v84 (F := Ideal) x3 (ix2 k m) := fun k m => weights_member x3 k m
  have hneg : ∀ (r : Fin 1025) (l : Fin 256), (val_main_v68 (F := Ideal) (ix3 g r l) : EReal)
      = Cert.KernelIdeal.Gen.k0_pay5 (F := Ideal) tm (ix2 r l) := fun r l => negmask_member tm htm g r l
  have htmm : ∀ (r : Fin 1025) (l : Fin 256), (val_main_v85 (F := Ideal) (ix3 g r l) : EReal)
      = Cert.KernelIdeal.Gen.k0_pay4 (F := Ideal) tm (ix2 r l) := fun r l => tagmask_member tm htm g r l
  have hbase : ∀ (r : Fin 1025) (l : Fin 256), (val_main_v69 (F := Ideal) x0 x1 (ix3 g r l) : EReal)
      = Cert.KernelIdeal.Gen.k0_pay10 (F := Ideal) tm X (ix2 r l) := fun r l => by
    rw [val_main_v69_apply]
    unfold Cert.KernelIdeal.Gen.k0_pay10
    rw [addf_apply, ← hX r l, ← hneg r l]
    rfl
  -- the first softmax
  have hdis1 : ∀ (r : Fin 1025) (l : Fin 256), (val_main_v80 (F := Ideal) x0 x1 (ix3 g r l) : EReal)
      = softK (Cert.KernelIdeal.Gen.k0_pay10 (F := Ideal) tm X) (ix2 r l) := fun r l => by
    rw [v80_eq]
    have h := Cert.LibSoftmax.memberAt_stackSoftmax (G := 32) (N := 1025) (L := 256) (val_main_v69 (F := Ideal) x0 x1) g
      Cert.ReferenceIdeal.Gen.reducesTo_S32x1025x256_S32x1025_d2 Cert.ReferenceIdeal.Gen.h_S_
      Cert.ReferenceIdeal.Gen.bcast_S_S32x1025 Cert.ReferenceIdeal.Gen.bcast_S32x1025_S32x1025x1_0_1
      Cert.ReferenceIdeal.Gen.bcast_S32x1025x1_S32x1025x256_0_1_2 Cert.KernelIdeal.Gen.reduces_S1025x256_S1025
      Cert.KernelIdeal.Gen.shapeCasts_S1025_S1025x1 Cert.KernelIdeal.Gen.broadcasts_S1025x1_S1025x256 (.inl rfl) rfl rfl
    rw [memberAt_eq_of_forall (φ := .f32) (ψ := .f32) (val_main_v69 (F := Ideal) x0 x1) (Cert.KernelIdeal.Gen.k0_pay10 (F := Ideal) tm X) g hbase] at h
    have h' := congrFun h (ix2 r l)
    rw [memberAt_apply, cons_ix2] at h'
    exact h'
  -- the first update
  have hs1 : ∀ (r : Fin 1025) (k : Fin 256), (val_main_v98 (F := Ideal) x0 x1 x2 x3 x4 (ix3 g r k) : EReal)
      = stepK (adjK (x2 (ix1 g)) (Cert.KernelIdeal.Gen.k0_pay11 v28)) (Cert.KernelIdeal.Gen.k0_pay4 tm)
          (Cert.KernelIdeal.Gen.k0_pay5 tm) (Cert.KernelIdeal.Gen.k0_pay10 tm X) (Cert.KernelIdeal.Gen.k0_pay12 x3) x4
          (softK (Cert.KernelIdeal.Gen.k0_pay10 tm X)) (ix2 r k) := fun r k => by
    rw [v98_eq]
    exact step_member g _ _ hA _ _ hW _ _ _ _ _ x4 _ _ _ _ (bias_member x4 g) hbase
      (fun r l => by rw [v97_eq]; exact hneg r l) htmm hdis1 r k
  -- the second softmax
  have hdis2 : ∀ (r : Fin 1025) (l : Fin 256), (val_main_v109 (F := Ideal) x0 x1 x2 x3 x4 (ix3 g r l) : EReal)
      = softK (stepK (adjK (x2 (ix1 g)) (Cert.KernelIdeal.Gen.k0_pay11 v28)) (Cert.KernelIdeal.Gen.k0_pay4 tm)
          (Cert.KernelIdeal.Gen.k0_pay5 tm) (Cert.KernelIdeal.Gen.k0_pay10 tm X) (Cert.KernelIdeal.Gen.k0_pay12 x3) x4
          (softK (Cert.KernelIdeal.Gen.k0_pay10 tm X))) (ix2 r l) := fun r l => by
    rw [v109_eq]
    have h := Cert.LibSoftmax.memberAt_stackSoftmax (G := 32) (N := 1025) (L := 256) (val_main_v98 (F := Ideal) x0 x1 x2 x3 x4) g
      Cert.ReferenceIdeal.Gen.reducesTo_S32x1025x256_S32x1025_d2 Cert.ReferenceIdeal.Gen.h_S_
      Cert.ReferenceIdeal.Gen.bcast_S_S32x1025 Cert.ReferenceIdeal.Gen.bcast_S32x1025_S32x1025x1_0_1
      Cert.ReferenceIdeal.Gen.bcast_S32x1025x1_S32x1025x256_0_1_2 Cert.KernelIdeal.Gen.reduces_S1025x256_S1025
      Cert.KernelIdeal.Gen.shapeCasts_S1025_S1025x1 Cert.KernelIdeal.Gen.broadcasts_S1025x1_S1025x256 (.inl rfl) rfl rfl
    rw [memberAt_eq_of_forall (φ := .f32) (ψ := .f32) (val_main_v98 (F := Ideal) x0 x1 x2 x3 x4) _ g hs1] at h
    have h' := congrFun h (ix2 r l)
    rw [memberAt_apply, cons_ix2] at h'
    exact h'
  -- the second update
  exact step_member g _ _ hA _ _ hW _ _ _ _ _ x4 _ _ _ _ (fun r k => by rw [v115_eq]; exact bias_member x4 g r k) hbase
    (fun r l => by rw [v122_eq]; exact hneg r l) (fun r l => by rw [v110_eq]; exact htmm r l) hdis2 r k

end Cert.Bridge

end
-- ==== Proof.Joint.lean ====
/-
  The joint logits of one batch member.

  The reference pads the token logits [32, 1024, 192] with 64 zero columns, pads the intent logits [32, 64] with 192
  zero columns in front, and appends the intent row below the token rows: joint[g, r, l] is the token logit for r < 1024
  and l < 192, the intent logit l - 192 for r = 1024 and l ≥ 192, and zero elsewhere.
-/
import proofs.«420288_j73366631350576_2_alg».proof.Proof.Gen.ReferenceIdeal.Read
import proofs.«420288_j73366631350576_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace Cert.Bridge

open Idealize.ShloMosaic Idealize.ShloMosaic.ValueIdx Idealize.ShloMosaic.StackMember
open Cert.ReferenceIdeal.Read

/-- Entry (r, l) of member g of the joint logits, by cases on the row and the column. -/
def jointAt (x0 : (⟨Cert.ReferenceIdeal.S32x1024x192, .f32⟩ : BufTy).Contents (Elt Ideal))
    (x1 : (⟨Cert.ReferenceIdeal.S32x64, .f32⟩ : BufTy).Contents (Elt Ideal)) (g : Fin 32) (r : Fin 1025) (l : Fin 256) : EReal :=
  if hr : r.val < 1024 then
    (if hl : l.val < 192 then x0 (ix3 g (⟨r.val, hr⟩ : Fin 1024) (⟨l.val, hl⟩ : Fin 192)) else 0)
  else
    (if hl : l.val < 192 then 0 else x1 (ix2 g (⟨l.val - 192, by have := l.isLt; omega⟩ : Fin 64)))

/-- The padded token logits at (g, r, l): the token logit for l < 192, zero beyond. -/
theorem v1_at (x0 : (⟨Cert.ReferenceIdeal.S32x1024x192, .f32⟩ : BufTy).Contents (Elt Ideal))
    (g : Fin 32) (r : Fin 1024) (l : Fin 256) :
    (val_main_v1 (F := Ideal) x0 (ix3 g r l) : EReal) =
      if hl : l.val < 192 then x0 (ix3 g r (⟨l.val, hl⟩ : Fin 192)) else 0 := by
  unfold val_main_v1
  by_cases hl : l.val < 192
  · rw [dif_pos hl]
    exact concatenate_pair_apply_left (2 : Fin 3) x0 _ _ (ix3 g r l) rfl (ix3 g r (⟨l.val, hl⟩ : Fin 192))
      (fun b => match b with | ⟨0, _⟩ => rfl | ⟨1, _⟩ => rfl | ⟨2, _⟩ => rfl)
  · rw [dif_neg hl]
    have hl2 : l.val - 192 < 64 := by have := l.isLt; omega
    refine (concatenate_pair_apply_right (s₂ := Cert.ReferenceIdeal.S32x1024x64) (2 : Fin 3) x0
      (val_main_v0 (F := Ideal)) _ (ix3 g r l) rfl rfl (ix3 g r (⟨l.val - 192, hl2⟩ : Fin 64))
      (fun b => match b with | ⟨0, _⟩ => fun _ => rfl | ⟨1, _⟩ => fun _ => rfl | ⟨2, _⟩ => fun h => absurd rfl h)
      (by show l.val - 192 + 192 = l.val; omega)).trans ?_
    rw [val_main_v0_apply, val_main_cst_apply]
    exact Ideal.ofBits_zero_f32

/-- The padded intent logits at (g, l): zero for l < 192, the intent logit l - 192 beyond. -/
theorem v3_at (x1 : (⟨Cert.ReferenceIdeal.S32x64, .f32⟩ : BufTy).Contents (Elt Ideal))
    (g : Fin 32) (l : Fin 256) :
    (val_main_v3 (F := Ideal) x1 (ix2 g l) : EReal) =
      if hl : l.val < 192 then 0
      else x1 (ix2 g (⟨l.val - 192, by have := l.isLt; omega⟩ : Fin 64)) := by
  unfold val_main_v3
  by_cases hl : l.val < 192
  · rw [dif_pos hl]
    refine (concatenate_pair_apply_left (s₁ := Cert.ReferenceIdeal.S32x192) (1 : Fin 2)
      (val_main_v2 (F := Ideal)) x1 _ (ix2 g l) rfl (ix2 g (⟨l.val, hl⟩ : Fin 192))
      (fun b => match b with | ⟨0, _⟩ => rfl | ⟨1, _⟩ => rfl)).trans ?_
    rw [val_main_v2_apply, val_main_cst_0_apply]
    exact Ideal.ofBits_zero_f32
  · rw [dif_neg hl]
    exact concatenate_pair_apply_right (s₁ := Cert.ReferenceIdeal.S32x192) (1 : Fin 2)
      (val_main_v2 (F := Ideal)) x1 _ (ix2 g l) rfl rfl
      (ix2 g (⟨l.val - 192, by have := l.isLt; omega⟩ : Fin 64))
      (fun b => match b with | ⟨0, _⟩ => fun _ => rfl | ⟨1, _⟩ => fun h => absurd rfl h)
      (by show l.val - 192 + 192 = l.val; omega)

/-- THE REFERENCE'S JOINT LOGITS AT (g, r, l). -/
theorem joint_member (x0 : (⟨Cert.ReferenceIdeal.S32x1024x192, .f32⟩ : BufTy).Contents (Elt Ideal))
    (x1 : (⟨Cert.ReferenceIdeal.S32x64, .f32⟩ : BufTy).Contents (Elt Ideal)) (g : Fin 32) (r : Fin 1025) (l : Fin 256) :
    (val_main_v5 (F := Ideal) x0 x1 (ix3 g r l) : EReal) = jointAt x0 x1 g r l := by
  unfold val_main_v5
  by_cases hr : r.val < 1024
  · have e : jointAt x0 x1 g r l =
        (if hl : l.val < 192 then x0 (ix3 g (⟨r.val, hr⟩ : Fin 1024) (⟨l.val, hl⟩ : Fin 192)) else 0) := by
      unfold jointAt; rw [dif_pos hr]
    rw [e, ← v1_at x0 g (⟨r.val, hr⟩ : Fin 1024) l]
    exact concatenate_pair_apply_left (1 : Fin 3) (val_main_v1 (F := Ideal) x0) (val_main_v4 (F := Ideal) x1) _
      (ix3 g r l) rfl (ix3 g (⟨r.val, hr⟩ : Fin 1024) l)
      (fun b => match b with | ⟨0, _⟩ => rfl | ⟨1, _⟩ => rfl | ⟨2, _⟩ => rfl)
  · have hr' : r.val = 1024 := by have := r.isLt; omega
    have e : jointAt x0 x1 g r l =
        (if hl : l.val < 192 then 0
         else x1 (ix2 g (⟨l.val - 192, by have := l.isLt; omega⟩ : Fin 64))) := by
      unfold jointAt; rw [dif_neg hr]
    rw [e, ← v3_at x1 g l]
    refine (concatenate_pair_apply_right (1 : Fin 3) (val_main_v1 (F := Ideal) x0) (val_main_v4 (F := Ideal) x1) _
      (ix3 g r l) rfl rfl (ix3 g (0 : Fin 1) l)
      (fun b => match b with | ⟨0, _⟩ => fun _ => rfl | ⟨1, _⟩ => fun h => absurd rfl h | ⟨2, _⟩ => fun _ => rfl)
      (by show 0 + 1024 = r.val; omega)).trans ?_
    rw [val_main_v4_apply]
    exact congrArg (val_main_v3 (F := Ideal) x1)
      (funext fun a => Fin.ext (by match a with | ⟨0, _⟩ => rfl | ⟨1, _⟩ => rfl))

end Cert.Bridge

end
-- ==== Proof.KernelRun.lean ====
/-
  The kernel's run, read as values: both results are the reference's.

  At grid point t the body's two stores are slices of ONE [1025, 256] value, and that value is batch member t of the
  reference's last stage (the bridge): the blocks the body is handed hold member t of the token logits and of the intent
  logits, the whole tag mask, distance kernel, weights and bias, and the length word is entry t of the lengths; the tag
  mask and the distance kernel the host computes before the call are the reference's own arrays, built by the same
  operations. Point t writes back block t of each result array, the 32 blocks tile the arrays, and the host's reshape
  after the call is the reference's.
-/
import proofs.«420288_j73366631350576_2_alg».proof.Proof.KernelValue
import proofs.«420288_j73366631350576_2_alg».proof.Proof.Bridge
import proofs.«420288_j73366631350576_2_alg».proof.Proof.Joint
import Idealize.ShloMosaic.Lib.StableHlo.Run

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.KR

open Cert.KernelIdeal Cert.KernelIdeal.Gen Cert.KernelIdeal.KV Cert.ReferenceIdeal.Read

variable (m : (ℓ : Loc nD τ sig) → Buf (Elt Ideal) ℓ) (ρ : Dev nD → PrngReg)

/-- The argument arrays at launch. -/
abbrev a0 (c : Dev nD) : S32x1024x192.Idx → Elt Ideal .f32 := m ((c : Thread nD τ).loc main_arg0)
abbrev a1 (c : Dev nD) : S32x64.Idx → Elt Ideal .f32 := m ((c : Thread nD τ).loc main_arg1)
abbrev a2 (c : Dev nD) : S32.Idx → Elt Ideal .i32 := m ((c : Thread nD τ).loc main_arg2)
abbrev a3 (c : Dev nD) : S1x256x256.Idx → Elt Ideal .f32 := m ((c : Thread nD τ).loc main_arg3)
abbrev a4 (c : Dev nD) : S256.Idx → Elt Ideal .f32 := m ((c : Thread nD τ).loc main_arg4)

/-- The tag mask the host builds before the call is the reference's, operation by operation. -/
theorem V_v11 (c : Dev nD) : (V m c main_v11 : S1025x256.Idx → Elt Ideal .f32) = val_main_v62 (F := Ideal) := by
  show StableHlo.after hostOps0 (fun b => m (c, b)) (Proc.devRef .tc main_v11) = _
  after_results
  rfl

set_option maxHeartbeats 4000000 in
/-- The distance kernel the host builds before the call is the reference's, after a format change. -/
theorem V_v34 (c : Dev nD) : @Eq (FVec Ideal S1025x1025 .bf16) (V m c main_v34)
    (truncf .bf16 (val_main_v27 (F := Ideal)) bitsLt_bf16_f32) := by
  show StableHlo.after hostOps0 (fun b => m (c, b)) (Proc.devRef .tc main_v34) = _
  after_results
  rfl

/-! ## The value at a grid point -/

/-- The joint logits from the two blocks at explicit coordinates. -/
theorem jointK_ix2 (x0 : Vec Ideal S1x1024x192 .f32) (x1 : Vec Ideal S1x1x64 .f32) (r : Fin 1025) (l : Fin 256) :
    jointK x0 x1 (ix2 r l)
      = if hr : r.val < 1024 then
          (if hl : l.val < 192 then x0 (ix3 (0 : Fin 1) (⟨r.val, hr⟩ : Fin 1024) (⟨l.val, hl⟩ : Fin 192))
           else Scalar.ofBits (F := Ideal) .f32 0x00000000#32)
        else
          (if hl : l.val < 192 then Scalar.ofBits (F := Ideal) .f32 0x00000000#32
           else x1 (ix3 (0 : Fin 1) (0 : Fin 1) (⟨l.val - 192, by have h : l.val < 256 := l.isLt; omega⟩ : Fin 64))) := rfl

/-- The scratch at point t holds batch member t of the reference's joint logits. -/
theorem scratch_member (hO : Ok m) (c : Dev nD) (t : Fin (cfgM m hO).N) (r : Fin 1025) (l : Fin 256) :
    (scratchVal (blk0 m hO c t) (blk1 m hO c t) (ix2 r l) : EReal)
      = val_main_v5 (F := Ideal) (a0 m c) (a1 m c) (ix3 (⟨t.val, t.isLt⟩ : Fin 32) r l) := by
  rw [scratchVal_eq, jointK_ix2, Cert.Bridge.joint_member]
  unfold Cert.Bridge.jointAt
  by_cases hr : r.val < 1024 <;> by_cases hl : l.val < 192
  · rw [dif_pos hr, dif_pos hl, dif_pos hr, dif_pos hl, blk0_eq]
  · rw [dif_pos hr, dif_neg hl, dif_pos hr, dif_neg hl]
    exact Ideal.ofBits_zero_f32
  · rw [dif_neg hr, dif_pos hl, dif_neg hr, dif_pos hl]
    exact Ideal.ofBits_zero_f32
  · rw [dif_neg hr, dif_neg hl, dif_neg hr, dif_neg hl, blk1_eq, V_v0]
    refine broadcastInDim_apply _ _ _ _ (ix2 (⟨t.val, t.isLt⟩ : Fin 32) (⟨l.val - 192, by have h : l.val < 256 := l.isLt; omega⟩ : Fin 64)) (fun a => ?_)
    match a with
    | ⟨0, _⟩ => show t.val = if (32 : Nat) = 1 then 0 else t.val; rw [if_neg (by decide)]
    | ⟨1, _⟩ => show l.val - 192 = if (64 : Nat) = 1 then 0 else l.val - 192; rw [if_neg (by decide)]

/-- The [1025, 256] value the body computes at point t. -/
abbrev ptBody (hO : Ok m) (c : Dev nD) (t : Fin (cfgM m hO).N) : FVec Ideal S1025x256 .f32 :=
  Cert.Bridge.bodyVal (lenAt c (grid0.coords t) (tbl m 0)) (scratchVal (blk0 m hO c t) (blk1 m hO c t))
    (blk2 m hO c t) (blk3 m hO c t) (blk4 m hO c t) (blk5 m hO c t)

/-- It is batch member t of the reference's last stage. -/
theorem ptBody_eq (hO : Ok m) (c : Dev nD) (t : Fin (cfgM m hO).N) (r : Fin 1025) (k : Fin 256) :
    (ptBody m hO c t (ix2 r k) : EReal)
      = val_main_v123 (F := Ideal) (a0 m c) (a1 m c) (a2 m c) (a3 m c) (a4 m c) (ix3 (⟨t.val, t.isLt⟩ : Fin 32) r k) := by
  unfold ptBody
  rw [blk4_eq, blk5_eq]
  exact (Cert.Bridge.bridge (a0 m c) (a1 m c) (a2 m c) (a3 m c) (a4 m c) (⟨t.val, t.isLt⟩ : Fin 32) _ (len_eq m hO c t) _ _ _
    (scratch_member m hO c t)
    (fun r l => by rw [blk2_eq, V_v11])
    (fun n k => by rw [blk3_eq, V_v34]; rfl) r k).symm

/-- The two output blocks after the body at point t are slices of that value. -/
theorem out6_pt (hO : Ok m) (c : Dev nD) (t : Fin (cfgM m hO).N) :
    (outsAt0 m hO c t).1 = shapeCast S1x1024x192 (extractStridedSlice S1024x192 ![0, 0] (ptBody m hO c t)
      slices_S1025x256_o0_0_S1024x192) shapeCasts_S1024x192_S1x1024x192 := by
  unfold outsAt0
  dsimp only
  exact out6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (blk0 m hO c t) (blk1 m hO c t) (blk2 m hO c t) (blk3 m hO c t) (blk4 m hO c t) (blk5 m hO c t) (tbl m 0)

theorem out7_pt (hO : Ok m) (c : Dev nD) (t : Fin (cfgM m hO).N) :
    (outsAt0 m hO c t).2 = shapeCast S1x1x64 (shapeCast S64 (extractStridedSlice S1x64 ![1024, 192] (ptBody m hO c t)
      slices_S1025x256_o1024_192_S1x64) shapeCasts_S1x64_S64) shapeCasts_S64_S1x1x64 := by
  unfold outsAt0
  dsimp only
  exact out7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (blk0 m hO c t) (blk1 m hO c t) (blk2 m hO c t) (blk3 m hO c t) (blk4 m hO c t) (blk5 m hO c t) (tbl m 0)

/-! ## The result arrays after the run -/

/-- What the two result arrays of the call end holding: the reference's two slices of its last stage. -/
abbrev G6 (c : Dev nD) : Buf (Elt Ideal) ((c : Thread nD τ).loc main_v35_0) :=
  val_main_v124 (F := Ideal) (a0 m c) (a1 m c) (a2 m c) (a3 m c) (a4 m c)
abbrev G7 (c : Dev nD) : Buf (Elt Ideal) ((c : Thread nD τ).loc main_v35_1) :=
  val_main_v125 (F := Ideal) (a0 m c) (a1 m c) (a2 m c) (a3 m c) (a4 m c)

set_option maxHeartbeats 4000000 in
/-- Point t writes back block t of the first result. -/
theorem flushed6 (hO : Ok m) (c : Dev nD) (t : Fin (cfgM m hO).N) :
    (dats m hO 0 c).flushed 6 t = (((cfgM m hO).win 6).blk t).view.read (Elt Ideal) (G6 m c) := by
  show ((cfgM m hO).win 6).cut (grid0.coords t) ((dats m hO 0 c).after 6 t) = _
  rw [after0_6, out6_pt]
  refine funext fun (j : S1x1024x192.Idx) => ?_
  have hj0 : (j 0).val < 1 := (j 0).isLt
  have hj1 : (j 1).val < 1024 := (j 1).isLt
  have hj2 : (j 2).val < 192 := (j 2).isLt
  have hemb : (((cfgM m hO).win 6).blk t).view.emb j
      = (ix3 (⟨t.val, t.isLt⟩ : Fin 32) (⟨(j 1).val, hj1⟩ : Fin 1024) (⟨(j 2).val, hj2⟩ : Fin 192) : S32x1024x192.Idx) := by
    funext a
    apply Fin.ext
    obtain ⟨-, -, -, -, -, -, e6, -⟩ := idx_facts t
    match a with
    | ⟨0, _⟩ => show cc0_transform_6 (grid0.coords t) 0 * 1 + 1 * (j 0).val = t.val; rw [e6]; show t.val * 1 + 1 * (j 0).val = t.val; omega
    | ⟨1, _⟩ => show cc0_transform_6 (grid0.coords t) 1 * 1024 + 1 * (j 1).val = (j 1).val; rw [e6]; show 0 * 1024 + 1 * (j 1).val = (j 1).val; omega
    | ⟨2, _⟩ => show cc0_transform_6 (grid0.coords t) 2 * 192 + 1 * (j 2).val = (j 2).val; rw [e6]; show 0 * 192 + 1 * (j 2).val = (j 2).val; omega
  show shapeCast S1x1024x192 (extractStridedSlice S1024x192 ![0, 0] (ptBody m hO c t) slices_S1025x256_o0_0_S1024x192)
      shapeCasts_S1024x192_S1x1024x192 j = G6 m c ((((cfgM m hO).win 6).blk t).view.emb j)
  rw [hemb]
  refine (shapeCast_addUnit_apply ![1024, 192] _ _ j).trans ?_
  refine (extractStridedSlice_apply ![0, 0] _ _ _ (ix2 (⟨(j 1).val, by omega⟩ : Fin 1025) (⟨(j 2).val, by omega⟩ : Fin 256)) (fun a => ?_)).trans ?_
  · match a with
    | ⟨0, _⟩ => show (j 1).val = 0 + (j 1).val; omega
    | ⟨1, _⟩ => show (j 2).val = 0 + (j 2).val; omega
  · rw [ptBody_eq]
    unfold G6
    rw [val_main_v124_apply]
    congr 1
    funext a
    apply Fin.ext
    match a with
    | ⟨0, _⟩ => rfl
    | ⟨1, _⟩ => rfl
    | ⟨2, _⟩ => rfl

/-- Point t writes back block t of the second result. -/
theorem flushed7 (hO : Ok m) (c : Dev nD) (t : Fin (cfgM m hO).N) :
    (dats m hO 0 c).flushed 7 t = (((cfgM m hO).win 7).blk t).view.read (Elt Ideal) (G7 m c) := by
  show ((cfgM m hO).win 7).cut (grid0.coords t) ((dats m hO 0 c).after 7 t) = _
  rw [after0_7, out7_pt]
  refine funext fun (j : S1x1x64.Idx) => ?_
  have hj0 : (j 0).val < 1 := (j 0).isLt
  have hj1 : (j 1).val < 1 := (j 1).isLt
  have hj2 : (j 2).val < 64 := (j 2).isLt
  have hemb : (((cfgM m hO).win 7).blk t).view.emb j
      = (ix3 (⟨t.val, t.isLt⟩ : Fin 32) (0 : Fin 1) (⟨(j 2).val, hj2⟩ : Fin 64) : S32x1x64.Idx) := by
    funext a
    apply Fin.ext
    obtain ⟨-, -, -, -, -, -, -, e7, -⟩ := idx_facts t
    match a with
    | ⟨0, _⟩ => show cc0_transform_7 (grid0.coords t) 0 * 1 + 1 * (j 0).val = t.val; rw [e7]; show t.val * 1 + 1 * (j 0).val = t.val; omega
    | ⟨1, _⟩ => show cc0_transform_7 (grid0.coords t) 1 * 1 + 1 * (j 1).val = 0; rw [e7]; show 0 * 1 + 1 * (j 1).val = 0; omega
    | ⟨2, _⟩ => show cc0_transform_7 (grid0.coords t) 2 * 64 + 1 * (j 2).val = (j 2).val; rw [e7]; show 0 * 64 + 1 * (j 2).val = (j 2).val; omega
  show shapeCast S1x1x64 (shapeCast S64 (extractStridedSlice S1x64 ![1024, 192] (ptBody m hO c t) slices_S1025x256_o1024_192_S1x64)
      shapeCasts_S1x64_S64) shapeCasts_S64_S1x1x64 j = G7 m c ((((cfgM m hO).win 7).blk t).view.emb j)
  rw [hemb]
  refine (shapeCast_apply _ _ j (ix1 (⟨(j 2).val, hj2⟩ : Fin 64)) (by
    rw [Shape.rowMajor_val_one, Shape.rowMajor_val_three]
    show (j 2).val = ((j 0).val * 1 + (j 1).val) * 64 + (j 2).val
    omega)).trans ?_
  refine (shapeCast_apply _ _ (ix1 (⟨(j 2).val, hj2⟩ : Fin 64)) (ix2 (0 : Fin 1) (⟨(j 2).val, hj2⟩ : Fin 64)) (by
    rw [Shape.rowMajor_val_two, Shape.rowMajor_val_one]
    show 0 * 64 + (j 2).val = (j 2).val
    omega)).trans ?_
  refine (extractStridedSlice_apply ![1024, 192] _ _ _ (ix2 (⟨1024, by omega⟩ : Fin 1025) (⟨192 + (j 2).val, by omega⟩ : Fin 256)) (fun a => ?_)).trans ?_
  · match a with
    | ⟨0, _⟩ => show 1024 = 1024 + 0; omega
    | ⟨1, _⟩ => show 192 + (j 2).val = 192 + (j 2).val; omega
  · rw [ptBody_eq]
    unfold G7
    rw [val_main_v125_apply]
    congr 1
    funext a
    apply Fin.ext
    match a with
    | ⟨0, _⟩ => rfl
    | ⟨1, _⟩ => rfl
    | ⟨2, _⟩ => rfl

/-- Every index of the first result lies in the block of the point its batch coordinate names. -/
theorem cover6 (hO : Ok m) (c : Dev nD) (i : S32x1024x192.Idx) :
    ∃ t : Fin (cfgM m hO).N, ((cfgM m hO).win 6).flush t = true ∧ i ∈ (((cfgM m hO).win 6).blk t).view.set := by
  have h0 : (i 0).val < 32 := (i 0).isLt
  have h1 : (i 1).val < 1024 := (i 1).isLt
  have h2 : (i 2).val < 192 := (i 2).isLt
  obtain ⟨t, ht⟩ : ∃ t : Fin (cfgM m hO).N, t.val = (i 0).val := ⟨⟨(i 0).val, (i 0).isLt⟩, rfl⟩
  refine ⟨t, flush0_6 (adm m hO) t, ?_⟩
  obtain ⟨-, -, -, -, -, -, e, -⟩ := idx_facts t
  have key : ∀ r : Rect main_v35_0.ty.shape, i ∈ ((View.whole main_v35_0).slice r).set ↔ i ∈ r.set :=
    fun r => by rw [View.set_slice_whole]
  refine (key _).mpr (Rect.mem_set_unit.mpr fun a => ?_)
  match a with
  | ⟨0, _⟩ =>
    show cc0_transform_6 (grid0.coords t) 0 * 1 ≤ (i 0).val ∧ (i 0).val < cc0_transform_6 (grid0.coords t) 0 * 1 + 1
    rw [e]; show t.val * 1 ≤ (i 0).val ∧ (i 0).val < t.val * 1 + 1; omega
  | ⟨1, _⟩ =>
    show cc0_transform_6 (grid0.coords t) 1 * 1024 ≤ (i 1).val ∧ (i 1).val < cc0_transform_6 (grid0.coords t) 1 * 1024 + 1024
    rw [e]; show 0 * 1024 ≤ (i 1).val ∧ (i 1).val < 0 * 1024 + 1024; omega
  | ⟨2, _⟩ =>
    show cc0_transform_6 (grid0.coords t) 2 * 192 ≤ (i 2).val ∧ (i 2).val < cc0_transform_6 (grid0.coords t) 2 * 192 + 192
    rw [e]; show 0 * 192 ≤ (i 2).val ∧ (i 2).val < 0 * 192 + 192; omega

/-- Every index of the second result lies in the block of the point its batch coordinate names. -/
theorem cover7 (hO : Ok m) (c : Dev nD) (i : S32x1x64.Idx) :
    ∃ t : Fin (cfgM m hO).N, ((cfgM m hO).win 7).flush t = true ∧ i ∈ (((cfgM m hO).win 7).blk t).view.set := by
  have h0 : (i 0).val < 32 := (i 0).isLt
  have h1 : (i 1).val < 1 := (i 1).isLt
  have h2 : (i 2).val < 64 := (i 2).isLt
  obtain ⟨t, ht⟩ : ∃ t : Fin (cfgM m hO).N, t.val = (i 0).val := ⟨⟨(i 0).val, (i 0).isLt⟩, rfl⟩
  refine ⟨t, flush0_7 (adm m hO) t, ?_⟩
  obtain ⟨-, -, -, -, -, -, -, e, -⟩ := idx_facts t
  have key : ∀ r : Rect main_v35_1.ty.shape, i ∈ ((View.whole main_v35_1).slice r).set ↔ i ∈ r.set :=
    fun r => by rw [View.set_slice_whole]
  refine (key _).mpr (Rect.mem_set_unit.mpr fun a => ?_)
  match a with
  | ⟨0, _⟩ =>
    show cc0_transform_7 (grid0.coords t) 0 * 1 ≤ (i 0).val ∧ (i 0).val < cc0_transform_7 (grid0.coords t) 0 * 1 + 1
    rw [e]; show t.val * 1 ≤ (i 0).val ∧ (i 0).val < t.val * 1 + 1; omega
  | ⟨1, _⟩ =>
    show cc0_transform_7 (grid0.coords t) 1 * 1 ≤ (i 1).val ∧ (i 1).val < cc0_transform_7 (grid0.coords t) 1 * 1 + 1
    rw [e]; show 0 * 1 ≤ (i 1).val ∧ (i 1).val < 0 * 1 + 1; omega
  | ⟨2, _⟩ =>
    show cc0_transform_7 (grid0.coords t) 2 * 64 ≤ (i 2).val ∧ (i 2).val < cc0_transform_7 (grid0.coords t) 2 * 64 + 64
    rw [e]; show 0 * 64 ≤ (i 2).val ∧ (i 2).val < 0 * 64 + 64; omega

/-- So the call's two result arrays end at the reference's two slices. -/
theorem final6 (hO : Ok m) (c : Dev nD) : (dats m hO 0 c).arrAt 6 (cfgM m hO).N = G6 m c :=
  (dats m hO 0 c).arrAt_eq_of_cover 6 (G6 m c) (fun t _ => flushed6 m hO c t) (cover6 m hO c)
theorem final7 (hO : Ok m) (c : Dev nD) : (dats m hO 0 c).arrAt 7 (cfgM m hO).N = G7 m c :=
  (dats m hO 0 c).arrAt_eq_of_cover 7 (G7 m c) (fun t _ => flushed7 m hO c t) (cover7 m hO c)

/-- The reshape after the call turns the second result array into the reference's second result. -/
theorem tail_v36 (hO : Ok m) (c : Dev nD) :
    Pipeline.afterTail pcfgs (fun _ => adm m hO) (dats m hO) 0 (V0 m) [hostOps1] c main_v36
      = val_main_v126 (F := Ideal) (a0 m c) (a1 m c) (a2 m c) (a3 m c) (a4 m c) := by
  unfold Pipeline.afterTail
  show StableHlo.after hostOps1 _ (Proc.devRef .tc main_v36) = _
  after_results
  have e : Pipeline.withArrays (Pipeline.pin pcfgs (fun _ => adm m hO) 0).spec c (V0 m c)
      (fun w => (dats m hO 0 c).arrAt w (Pipeline.pin pcfgs (fun _ => adm m hO) 0).N) (Proc.devRef .tc main_v35_1) = G7 m c :=
    (Pipeline.withArrays_arr spec0 winFacts0.arr_inj c _ _ 7).trans (final7 m hO c)
  rw [e]
  rfl

/-- THE KERNEL'S RUN: every weakly fair execution terminates with the two results at the reference's two results of the
    launch contents of the arguments, and the arguments unchanged. -/
theorem run (hO : Ok m) : θ_run defs (onTc (τ := τ) (main (F := Ideal))) ⟨m, fun _ => 0, ρ⟩ (fun r => ∀ c : Dev nD,
      r.2.mem ((c.tc : Thread nD τ).loc main_v35_0) = G6 m c
      ∧ r.2.mem ((c.tc : Thread nD τ).loc main_v36) = val_main_v126 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final6 m hO c),
      ((h c).2 main_v36 (by decide : main_v36 ∈ Pipeline.restRefs sig spec0)).trans (tail_v36 m hO c),
      ((h c).1 0).trans (((dats m hO 0 c).arrAt_in 0 rfl _).trans ((A_eq m hO c 0).trans (V_main_arg0 m c))),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).1 4).trans (((dats m hO 0 c).arrAt_in 4 rfl _).trans ((A_eq m hO c 4).trans (V_main_arg3 m c))),
      ((h c).1 5).trans (((dats m hO 0 c).arrAt_in 5 rfl _).trans ((A_eq m hO c 5).trans (V_main_arg4 m c)))⟩)
    (run_main m ρ hO)

end Cert.KernelIdeal.KR

end
-- ==== Proof.lean ====
/-
  The certificate's claims, assembled.

  The kernel computes, for each of the 32 batch members in its own grid point, two rounds of the masked message-passing
  update on the member's [1025, 256] joint logits and writes back the token slice and the intent slice; the reference
  computes the same two rounds for the whole batch at once and slices at the end. On the extended reals the two agree
  entry by entry: member t of each stage of the reference is the kernel's stage at point t (the softmax along the rows,
  the two matrix products as sums over the contracted axis, the adjacency mask as a product of 0/1 indicators, the
  constant masks and the bias as broadcasts), the blocks the kernel is handed are member t of the arguments, and the 32
  write-backs tile the result arrays. No property of the inputs is used: the equality holds for every extended-real
  input, so the precondition is never opened. The index maps of the call's windows read no prefetched word, so the
  side condition of the generated frames is trivially true. The idealization rewrote nothing.
-/
import proofs.«420288_j73366631350576_2_alg».proof.Defs
import proofs.«420288_j73366631350576_2_alg».proof.Proof.Gen.Kernel
import proofs.«420288_j73366631350576_2_alg».proof.Proof.Gen.Kernel.Skeleton
import proofs.«420288_j73366631350576_2_alg».proof.Proof.Gen.Kernel.Launch
import proofs.«420288_j73366631350576_2_alg».proof.Proof.Gen.Kernel.Points
import proofs.«420288_j73366631350576_2_alg».proof.Proof.Gen.Kernel.Frame
import proofs.«420288_j73366631350576_2_alg».proof.Proof.Gen.KernelIdeal
import proofs.«420288_j73366631350576_2_alg».proof.Proof.Gen.KernelIdeal.Skeleton
import proofs.«420288_j73366631350576_2_alg».proof.Proof.Gen.KernelIdeal.Launch
import proofs.«420288_j73366631350576_2_alg».proof.Proof.Gen.KernelIdeal.Points
import proofs.«420288_j73366631350576_2_alg».proof.Proof.Gen.KernelIdeal.Frame
import proofs.«420288_j73366631350576_2_alg».proof.Proof.Gen.ReferenceIdeal
import proofs.«420288_j73366631350576_2_alg».proof.Proof.Gen.ReferenceIdeal.Run
import proofs.«420288_j73366631350576_2_alg».proof.Proof.Gen.ReferenceIdeal.Read
import proofs.«420288_j73366631350576_2_alg».proof.Proof.Gen.Pre_finite_inputs
import proofs.«420288_j73366631350576_2_alg».proof.Proof.KernelRun
import Idealize.ShloMosaic.Adequacy
import Idealize.ShloMosaic.Init

noncomputable section

namespace Cert.Proof

open Idealize.ShloMosaic Idealize.SL.Sem

/-- The word-level kernel runs and keeps its arguments: no window's index map reads a prefetched word, so the frame's
    side condition is the true proposition. -/
theorem frame_k : Cert.frame_Kernel := fun m ρ _ => Cert.Kernel.Gen.frame m ρ trivial

/-- The idealized kernel likewise. -/
theorem frame_ki : Cert.frame_KernelIdeal := fun m ρ _ => Cert.KernelIdeal.Gen.frame m ρ trivial

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the reference's two results of the kernel's launch contents: the kernel by its run read as
    values, the reference by its run at arguments that agree. -/
theorem algebraic : Cert.algebraic_KernelIdeal_ReferenceIdeal := by
  intro m ρ m' ρ' _ hagree
  refine ⟨fun c => Cert.KernelIdeal.KR.G6 m c,
    fun c => Cert.ReferenceIdeal.Read.val_main_v126 (F := Ideal) (Cert.KernelIdeal.KR.a0 m c) (Cert.KernelIdeal.KR.a1 m c)
      (Cert.KernelIdeal.KR.a2 m c) (Cert.KernelIdeal.KR.a3 m c) (Cert.KernelIdeal.KR.a4 m c),
    Cert.KernelIdeal.KR.run m ρ trivial, ?_⟩
  refine (θ_run Cert.ReferenceIdeal.defs _ _).mono (fun _ h c => ?_) (Cert.ReferenceIdeal.Value.run (F := Ideal) m' ρ')
  obtain ⟨h1, h2, h3⟩ := h c
  obtain ⟨g0, g1, g2, g3, g4⟩ := hagree c
  refine ⟨h1.trans ?_, h2.trans ?_, h3⟩
  · rw [Cert.ReferenceIdeal.Read.val_main_v124_eq, g0, g1, g2, g3, g4]
  · rw [Cert.ReferenceIdeal.Read.val_main_v126_eq, g0, g1, g2, g3, g4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
